-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40000x128 : Shape := ⟨2, ![40000, 128]⟩
abbrev S1200000 : Shape := ⟨1, ![1200000]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S128x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x128 .f32) (main_arg1 : FVec F S40000x128 .f32) (main_arg2 : IVec S1200000 32) (main_arg3 : IVec S1200000 32) (main_arg4 : FVec F S128x32 .f32) (main_arg5 : FVec F S32 .f32) (main_arg6 : FVec F S128x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_v13 main_v16
-- ==== Kernel.lean ====
abbrev S100000x128 : Shape := ⟨2, ![100000, 128]⟩
abbrev S40000x128 : Shape := ⟨2, ![40000, 128]⟩
abbrev S1200000 : Shape := ⟨1, ![1200000]⟩
abbrev S128x32 : Shape := ⟨2, ![128, 32]⟩
abbrev S32 : Shape := ⟨1, ![32]⟩
abbrev S1x32 : Shape := ⟨2, ![1, 32]⟩
abbrev S100000x32 : Shape := ⟨2, ![100000, 32]⟩
abbrev S800x128 : Shape := ⟨2, ![800, 128]⟩
abbrev S800x32 : Shape := ⟨2, ![800, 32]⟩
abbrev S40000x32 : Shape := ⟨2, ![40000, 32]⟩
abbrev S140000x32 : Shape := ⟨2, ![140000, 32]⟩
abbrev S_ : Shape := ⟨0, ![]⟩
abbrev S2400000 : Shape := ⟨1, ![2400000]⟩
abbrev S140000 : Shape := ⟨1, ![140000]⟩
abbrev S2400000x1 : Shape := ⟨2, ![2400000, 1]⟩
abbrev S2400000x32 : Shape := ⟨2, ![2400000, 32]⟩

abbrev nBuf : Space → Nat
  | .hbm => 94
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S40000x128, .f32⟩
  | .hbm, ⟨2, _⟩ => ⟨S1200000, .i32⟩
  | .hbm, ⟨3, _⟩ => ⟨S1200000, .i32⟩
  | .hbm, ⟨4, _⟩ => ⟨S128x32, .f32⟩
  | .hbm, ⟨5, _⟩ => ⟨S32, .f32⟩
  | .hbm, ⟨6, _⟩ => ⟨S128x32, .f32⟩
  | .hbm, ⟨7, _⟩ => ⟨S32, .f32⟩
  | .hbm, ⟨8, _⟩ => ⟨S1x32, .f32⟩
  | .hbm, ⟨9, _⟩ => ⟨S100000x32, .f32⟩
  | .hbm, ⟨10, _⟩ => ⟨S1x32, .f32⟩
  | .hbm, ⟨11, _⟩ => ⟨S40000x32, .f32⟩
  | .hbm, ⟨12, _⟩ => ⟨S140000x32, .f32⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S2400000, .i32⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S2400000, .i32⟩
  | .hbm, ⟨21, _⟩ => ⟨S_, .f32⟩
  | .hbm, ⟨22, _⟩ => ⟨S2400000, .f32⟩
  | .hbm, ⟨23, _⟩ => ⟨S_, .f32⟩
  | .hbm, ⟨24, _⟩ => ⟨S140000, .f32⟩
  | .hbm, ⟨25, _⟩ => ⟨S2400000x1, .i32⟩
  | .hbm, ⟨26, _⟩ => ⟨S140000, .f32⟩
  | .hbm, ⟨27, _⟩ => ⟨S_, .f32⟩
  | .hbm, ⟨28, _⟩ => ⟨S140000, .f32⟩
  | .hbm, ⟨29, _⟩ => ⟨S140000, .i1⟩
  | .hbm, ⟨30, _⟩ => ⟨S_, .f32⟩
  | .hbm, ⟨31, _⟩ => ⟨S140000, .f32⟩
  | .hbm, ⟨32, _⟩ => ⟨S140000, .f32⟩
  | .hbm, ⟨33, _⟩ => ⟨S140000, .f32⟩
  | .hbm, ⟨34, _⟩ => ⟨S_, .f32⟩
  | .hbm, ⟨35, _⟩ => ⟨S_, .f32⟩
  | .hbm, ⟨36, _⟩ => ⟨S140000, .f32⟩
  | .hbm, ⟨37, _⟩ => ⟨S140000, .f32⟩
  | .hbm, ⟨38, _⟩ => ⟨S_, .i32⟩
  | .hbm, ⟨39, _⟩ => ⟨S2400000, .i32⟩
  | .hbm, ⟨40, _⟩ => ⟨S2400000, .i1⟩
  | .hbm, ⟨41, _⟩ => ⟨S_, .i32⟩
  | .hbm, ⟨42, _⟩ => ⟨S2400000, .i32⟩
  | .hbm, ⟨43, _⟩ => ⟨S2400000, .i32⟩
  | .hbm, ⟨44, _⟩ => ⟨S2400000, .i32⟩
  | .hbm, ⟨45, _⟩ => ⟨S2400000x1, .i32⟩
  | .hbm, ⟨46, _⟩ => ⟨S2400000, .f32⟩
  | .hbm, ⟨47, _⟩ => ⟨S_, .i32⟩
  | .hbm, ⟨48, _⟩ => ⟨S2400000, .i32⟩
  | .hbm, ⟨49, _⟩ => ⟨S2400000, .i1⟩
  | .hbm, ⟨50, _⟩ => ⟨S_, .i32⟩
  | .hbm, ⟨51, _⟩ => ⟨S2400000, .i32⟩
  | .hbm, ⟨52, _⟩ => ⟨S2400000, .i32⟩
  | .hbm, ⟨53, _⟩ => ⟨S2400000, .i32⟩
  | .hbm, ⟨54, _⟩ => ⟨S2400000x1, .i32⟩
  | .hbm, ⟨55, _⟩ => ⟨S2400000, .f32⟩
  | .hbm, ⟨56, _⟩ => ⟨S2400000, .f32⟩
  | .hbm, ⟨57, _⟩ => ⟨S_, .i32⟩
  | .hbm, ⟨58, _⟩ => ⟨S2400000, .i32⟩
  | .hbm, ⟨59, _⟩ => ⟨S2400000, .i1⟩
  | .hbm, ⟨60, _⟩ => ⟨S_, .i32⟩
  | .hbm, ⟨61, _⟩ => ⟨S2400000, .i32⟩
  | .hbm, ⟨62, _⟩ => ⟨S2400000, .i32⟩
  | .hbm, ⟨63, _⟩ => ⟨S2400000, .i32⟩
  | .hbm, ⟨64, _⟩ => ⟨S2400000x1, .i32⟩
  | .hbm, ⟨65, _⟩ => ⟨S2400000x32, .f32⟩
  | .hbm, ⟨66, _⟩ => ⟨S2400000x1, .f32⟩
  | .hbm, ⟨67, _⟩ => ⟨S2400000x32, .f32⟩
  | .hbm, ⟨68, _⟩ => ⟨S2400000x32, .f32⟩
  | .hbm, ⟨69, _⟩ => ⟨S_, .f32⟩
  | .hbm, ⟨70, _⟩ => ⟨S140000x32, .f32⟩
  | .hbm, ⟨71, _⟩ => ⟨S2400000x1, .i32⟩
  | .hbm, ⟨72, _⟩ => ⟨S140000x32, .f32⟩
  | .hbm, ⟨73, _⟩ => ⟨S140000x32, .f32⟩
  | .hbm, ⟨74, _⟩ => ⟨S_, .i32⟩
  | .hbm, ⟨75, _⟩ => ⟨S2400000, .i32⟩
  | .hbm, ⟨76, _⟩ => ⟨S2400000, .i1⟩
  | .hbm, ⟨77, _⟩ => ⟨S_, .i32⟩
  | .hbm, ⟨78, _⟩ => ⟨S2400000, .i32⟩
  | .hbm, ⟨79, _⟩ => ⟨S2400000, .i32⟩
  | .hbm, ⟨80, _⟩ => ⟨S2400000, .i32⟩
  | .hbm, ⟨81, _⟩ => ⟨S2400000x1, .i32⟩
  | .hbm, ⟨82, _⟩ => ⟨S2400000x32, .f32⟩
  | .hbm, ⟨83, _⟩ => ⟨S2400000x1, .f32⟩
  | .hbm, ⟨84, _⟩ => ⟨S2400000x32, .f32⟩
  | .hbm, ⟨85, _⟩ => ⟨S2400000x32, .f32⟩
  | .hbm, ⟨86, _⟩ => ⟨S_, .f32⟩
  | .hbm, ⟨87, _⟩ => ⟨S140000x32, .f32⟩
  | .hbm, ⟨88, _⟩ => ⟨S2400000x1, .i32⟩
  | .hbm, ⟨89, _⟩ => ⟨S140000x32, .f32⟩
  | .hbm, ⟨90, _⟩ => ⟨S140000x32, .f32⟩
  | .hbm, ⟨91, _⟩ => ⟨S140000x32, .f32⟩
  | .hbm, ⟨92, _⟩ => ⟨S100000x32, .f32⟩
  | .hbm, ⟨93, _⟩ => ⟨S40000x32, .f32⟩
  | .local _ .vmem, ⟨0, _⟩ => ⟨S800x128, .f32⟩
  | .local _ .vmem, ⟨1, _⟩ => ⟨S800x128, .f32⟩
  | .local _ .vmem, ⟨2, _⟩ => ⟨S128x32, .f32⟩
  | .local _ .vmem, ⟨3, _⟩ => ⟨S1x32, .f32⟩
  | .local _ .vmem, ⟨4, _⟩ => ⟨S800x32, .f32⟩
  | .local _ .vmem, ⟨5, _⟩ => ⟨S800x32, .f32⟩
  | .local _ .vmem, ⟨6, _⟩ => ⟨S800x128, .f32⟩
  | .local _ .vmem, ⟨7, _⟩ => ⟨S800x128, .f32⟩
  | .local _ .vmem, ⟨8, _⟩ => ⟨S128x32, .f32⟩
  | .local _ .vmem, ⟨9, _⟩ => ⟨S1x32, .f32⟩
  | .local _ .vmem, ⟨10, _⟩ => ⟨S800x32, .f32⟩
  | .local _ .vmem, ⟨11, _⟩ => ⟨S800x32, .f32⟩
  | .local _ .vmem, ⟨12, _⟩ => ⟨S800x32, .f32⟩
  | .local _ .vmem, ⟨13, _⟩ => ⟨S800x32, .f32⟩
  | .local _ .vmem, ⟨14, _⟩ => ⟨S800x32, .f32⟩
  | .local _ .vmem, ⟨15, _⟩ => ⟨S800x32, .f32⟩
  | .local _ .vmem, ⟨16, _⟩ => ⟨S800x32, .f32⟩
  | .local _ .vmem, ⟨17, _⟩ => ⟨S800x32, .f32⟩
  | .local _ .vmem, ⟨18, _⟩ => ⟨S800x32, .f32⟩
  | .local _ .vmem, ⟨19, _⟩ => ⟨S800x32, .f32⟩
  | .local _ .vmem, ⟨20, _⟩ => ⟨S800x32, .f32⟩
  | .local _ .vmem, ⟨21, _⟩ => ⟨S800x32, .f32⟩
  | .local _ .vmem, ⟨22, _⟩ => ⟨S800x32, .f32⟩
  | .local _ .vmem, ⟨23, _⟩ => ⟨S800x32, .f32⟩
  | .local _ .vmem, ⟨24, _⟩ => ⟨S800x32, .f32⟩
  | .local _ .vmem, ⟨25, _⟩ => ⟨S800x32, .f32⟩
  | .local _ .vmem, ⟨26, _⟩ => ⟨S800x32, .f32⟩
  | .local _ .vmem, ⟨27, _⟩ => ⟨S800x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S800x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S800x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![175], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S800x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S800x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![175], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S800x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S800x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S800x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![175], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S800x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S800x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  shapeCasts_S32_S1x32 : S32.ShapeCasts S1x32
  inb_S800x128_S800x128_0_0 : ∀ a, (![0, 0] : Fin 2 → Nat) a + S800x128.size a ≤ S800x128.size a
  h_S800x128 : 0 < S800x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S800x32 : S1x32.Broadcasts S800x32
  inb_S800x32_S800x32_0_0 : ∀ a, (![0, 0] : Fin 2 → Nat) a + S800x32.size a ≤ S800x32.size a
  h_S800x32 : 0 < S800x32.numel
  concatenates_S100000x32_S40000x32_S140000x32_d0 : Shape.Concatenates [S100000x32, S40000x32] S140000x32 0
  bcast_S_S1200000 : S_.BroadcastsInDim S1200000 (![] : Fin 0 → Fin S1200000.rank)
  concatenates_S1200000_S1200000_S2400000_d0 : Shape.Concatenates [S1200000, S1200000] S2400000 0
  bcast_S_S2400000 : S_.BroadcastsInDim S2400000 (![] : Fin 0 → Fin S2400000.rank)
  bcast_S_S140000 : S_.BroadcastsInDim S140000 (![] : Fin 0 → Fin S140000.rank)
  bcast_S2400000_S2400000x1_0 : S2400000.BroadcastsInDim S2400000x1 (![0] : Fin 1 → Fin S2400000x1.rank)
  bcast_S2400000x1_S2400000x32_0_1 : S2400000x1.BroadcastsInDim S2400000x32 (![0, 1] : Fin 2 → Fin S2400000x32.rank)
  bcast_S_S140000x32 : S_.BroadcastsInDim S140000x32 (![] : Fin 0 → Fin S140000x32.rank)
  shapeCasts_S800x32_S800x32 : S800x32.ShapeCasts S800x32
  slices_S140000x32_S100000x32_0_0 : S140000x32.Slices ![0, 0] S100000x32
  slices_S140000x32_S40000x32_100000_0 : S140000x32.Slices ![100000, 0] S40000x32
  dot_S800x128_S128x32_S800x32_1_0_0_1_n_n_wf : DotDims.WF S800x128 S128x32 S800x32 [1] [0] [0] [1] [] []
  scatter_S140000_S2400000x1_S2400000_n_0_0_1_wf : ScatterDims.WF S140000 S2400000x1 S2400000 [] [0] [0] 1
  gather_S140000_S2400000x1_S2400000_n_0_n_n_0_1_1_wf : GatherDims.WF S140000 S2400000x1 S2400000 [] [0] [] [0] [] 1 ![1]
  gather_S140000x32_S2400000x1_S2400000x32_1_0_n_n_0_1_132_wf : GatherDims.WF S140000x32 S2400000x1 S2400000x32 [1] [0] [] [0] [] 1 ![1, 32]
  scatter_S140000x32_S2400000x1_S2400000x32_1_0_0_1_wf : ScatterDims.WF S140000x32 S2400000x1 S2400000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x128.size a ≤ S100000x128.size a
  hwx0_0 : ∀ i : grid0.Coords, EltTy.bits .f32 = 32 ∨ (Rect.block (s := S100000x128) S800x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x32.size a ≤ S100000x32.size a
  hwx0_3 : ∀ i : grid0.Coords, EltTy.bits .f32 = 32 ∨ (Rect.block (s := S100000x32) S800x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x128.size a ≤ S40000x128.size a
  hwx1_0 : ∀ i : grid1.Coords, EltTy.bits .f32 = 32 ∨ (Rect.block (s := S40000x128) S800x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S800x32.size a ≤ S40000x32.size a
  hwx1_3 : ∀ i : grid1.Coords, EltTy.bits .f32 = 32 ∨ (Rect.block (s := S40000x32) S800x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x32.size a ≤ S140000x32.size a
  hwx2_0 : ∀ i : grid2.Coords, EltTy.bits .f32 = 32 ∨ (Rect.block (s := S140000x32) S800x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S800x32.size a ≤ S140000x32.size a
  hwx2_1 : ∀ i : grid2.Coords, EltTy.bits .f32 = 32 ∨ (Rect.block (s := S140000x32) S800x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x32.size a ≤ S140000x32.size a
  hwx2_2 : ∀ i : grid2.Coords, EltTy.bits .f32 = 32 ∨ (Rect.block (s := S140000x32) S800x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S800x32.size a ≤ S140000x32.size a
  hwx3_0 : ∀ i : grid3.Coords, EltTy.bits .f32 = 32 ∨ (Rect.block (s := S140000x32) S800x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S800x32.size a ≤ S140000x32.size a
  hwx3_1 : ∀ i : grid3.Coords, EltTy.bits .f32 = 32 ∨ (Rect.block (s := S140000x32) S800x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S800x32.size a ≤ S140000x32.size a
  hwx3_2 : ∀ i : grid3.Coords, EltTy.bits .f32 = 32 ∨ (Rect.block (s := S140000x32) S800x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S800x32.size a ≤ S140000x32.size a
  hwx4_0 : ∀ i : grid4.Coords, EltTy.bits .f32 = 32 ∨ (Rect.block (s := S140000x32) S800x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S800x32.size a ≤ S140000x32.size a
  hwx4_1 : ∀ i : grid4.Coords, EltTy.bits .f32 = 32 ∨ (Rect.block (s := S140000x32) S800x32.size (cc4_transform_1 i) (hinb4_1 i)).WholeWords (EltTy.packing .f32)

variable [Facts₀]

def dot_S800x128_S128x32_S800x32_1_0_0_1_n_n : DotDims S800x128 S128x32 S800x32 where
  lhsContracting := [1]
  rhsContracting := [0]
  lhsNonContracting := [0]
  rhsNonContracting := [1]
  lhsBatch := []
  rhsBatch := []
  wf := dot_S800x128_S128x32_S800x32_1_0_0_1_n_n_wf
def scatter_S140000_S2400000x1_S2400000_n_0_0_1 : ScatterDims S140000 S2400000x1 S2400000 where
  updateWindowDims := []
  insertedWindowDims := [0]
  scatterDimsToOperandDims := [0]
  indexVectorDim := 1
  wf := scatter_S140000_S2400000x1_S2400000_n_0_0_1_wf
def gather_S140000_S2400000x1_S2400000_n_0_n_n_0_1_1 : GatherDims S140000 S2400000x1 S2400000 where
  offsetDims := []
  collapsedSliceDims := [0]
  operandBatchingDims := []
  startIndicesBatchingDims := []
  startIndexMap := [0]
  indexVectorDim := 1
  sliceSizes := ![1]
  wf := gather_S140000_S2400000x1_S2400000_n_0_n_n_0_1_1_wf
def gather_S140000x32_S2400000x1_S2400000x32_1_0_n_n_0_1_132 : GatherDims S140000x32 S2400000x1 S2400000x32 where
  offsetDims := [1]
  collapsedSliceDims := [0]
  operandBatchingDims := []
  startIndicesBatchingDims := []
  startIndexMap := [0]
  indexVectorDim := 1
  sliceSizes := ![1, 32]
  wf := gather_S140000x32_S2400000x1_S2400000x32_1_0_n_n_0_1_132_wf
def scatter_S140000x32_S2400000x1_S2400000x32_1_0_0_1 : ScatterDims S140000x32 S2400000x1 S2400000x32 where
  updateWindowDims := [1]
  insertedWindowDims := [0]
  scatterDimsToOperandDims := [0]
  indexVectorDim := 1
  wf := scatter_S140000x32_S2400000x1_S2400000x32_1_0_0_1_wf

abbrev win0_0 : Pipeline.Window sig grid0 :=
  Pipeline.Window.ofSpec (Memref.whole main_arg0) S800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S800x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S800x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S800x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S800x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S800x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S800x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S800x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S800x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S800x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S800x32.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S40000x128 : Shape := ⟨2, ![40000, 128]⟩
abbrev S1200000 : Shape := ⟨1, ![1200000]⟩
abbrev S128x32 : Shape := ⟨2, ![128, 32]⟩
abbrev S32 : Shape := ⟨1, ![32]⟩
abbrev S100000x32 : Shape := ⟨2, ![100000, 32]⟩
abbrev S1x32 : Shape := ⟨2, ![1, 32]⟩
abbrev S40000x32 : Shape := ⟨2, ![40000, 32]⟩
abbrev S140000x32 : Shape := ⟨2, ![140000, 32]⟩
abbrev S_ : Shape := ⟨0, ![]⟩
abbrev S2400000 : Shape := ⟨1, ![2400000]⟩
abbrev S140000 : Shape := ⟨1, ![140000]⟩
abbrev S2400000x1 : Shape := ⟨2, ![2400000, 1]⟩
abbrev S2400000x32 : Shape := ⟨2, ![2400000, 32]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S40000x128, .f32⟩
  | .hbm, ⟨2, _⟩ => ⟨S1200000, .i32⟩
  | .hbm, ⟨3, _⟩ => ⟨S1200000, .i32⟩
  | .hbm, ⟨4, _⟩ => ⟨S128x32, .f32⟩
  | .hbm, ⟨5, _⟩ => ⟨S32, .f32⟩
  | .hbm, ⟨6, _⟩ => ⟨S128x32, .f32⟩
  | .hbm, ⟨7, _⟩ => ⟨S32, .f32⟩
  | .hbm, ⟨8, _⟩ => ⟨S100000x32, .f32⟩
  | .hbm, ⟨9, _⟩ => ⟨S1x32, .f32⟩
  | .hbm, ⟨10, _⟩ => ⟨S100000x32, .f32⟩
  | .hbm, ⟨11, _⟩ => ⟨S100000x32, .f32⟩
  | .hbm, ⟨12, _⟩ => ⟨S40000x32, .f32⟩
  | .hbm, ⟨13, _⟩ => ⟨S1x32, .f32⟩
  | .hbm, ⟨14, _⟩ => ⟨S40000x32, .f32⟩
  | .hbm, ⟨15, _⟩ => ⟨S40000x32, .f32⟩
  | .hbm, ⟨16, _⟩ => ⟨S140000x32, .f32⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S2400000, .i32⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S2400000, .i32⟩
  | .hbm, ⟨25, _⟩ => ⟨S_, .f32⟩
  | .hbm, ⟨26, _⟩ => ⟨S2400000, .f32⟩
  | .hbm, ⟨27, _⟩ => ⟨S_, .f32⟩
  | .hbm, ⟨28, _⟩ => ⟨S140000, .f32⟩
  | .hbm, ⟨29, _⟩ => ⟨S2400000x1, .i32⟩
  | .hbm, ⟨30, _⟩ => ⟨S140000, .f32⟩
  | .hbm, ⟨31, _⟩ => ⟨S_, .f32⟩
  | .hbm, ⟨32, _⟩ => ⟨S140000, .f32⟩
  | .hbm, ⟨33, _⟩ => ⟨S140000, .i1⟩
  | .hbm, ⟨34, _⟩ => ⟨S_, .f32⟩
  | .hbm, ⟨35, _⟩ => ⟨S140000, .f32⟩
  | .hbm, ⟨36, _⟩ => ⟨S140000, .f32⟩
  | .hbm, ⟨37, _⟩ => ⟨S140000, .f32⟩
  | .hbm, ⟨38, _⟩ => ⟨S_, .f32⟩
  | .hbm, ⟨39, _⟩ => ⟨S_, .f32⟩
  | .hbm, ⟨40, _⟩ => ⟨S140000, .f32⟩
  | .hbm, ⟨41, _⟩ => ⟨S140000, .f32⟩
  | .hbm, ⟨42, _⟩ => ⟨S_, .i32⟩
  | .hbm, ⟨43, _⟩ => ⟨S2400000, .i32⟩
  | .hbm, ⟨44, _⟩ => ⟨S2400000, .i1⟩
  | .hbm, ⟨45, _⟩ => ⟨S_, .i32⟩
  | .hbm, ⟨46, _⟩ => ⟨S2400000, .i32⟩
  | .hbm, ⟨47, _⟩ => ⟨S2400000, .i32⟩
  | .hbm, ⟨48, _⟩ => ⟨S2400000, .i32⟩
  | .hbm, ⟨49, _⟩ => ⟨S2400000x1, .i32⟩
  | .hbm, ⟨50, _⟩ => ⟨S2400000, .f32⟩
  | .hbm, ⟨51, _⟩ => ⟨S_, .i32⟩
  | .hbm, ⟨52, _⟩ => ⟨S2400000, .i32⟩
  | .hbm, ⟨53, _⟩ => ⟨S2400000, .i1⟩
  | .hbm, ⟨54, _⟩ => ⟨S_, .i32⟩
  | .hbm, ⟨55, _⟩ => ⟨S2400000, .i32⟩
  | .hbm, ⟨56, _⟩ => ⟨S2400000, .i32⟩
  | .hbm, ⟨57, _⟩ => ⟨S2400000, .i32⟩
  | .hbm, ⟨58, _⟩ => ⟨S2400000x1, .i32⟩
  | .hbm, ⟨59, _⟩ => ⟨S2400000, .f32⟩
  | .hbm, ⟨60, _⟩ => ⟨S2400000, .f32⟩
  | .hbm, ⟨61, _⟩ => ⟨S_, .i32⟩
  | .hbm, ⟨62, _⟩ => ⟨S2400000, .i32⟩
  | .hbm, ⟨63, _⟩ => ⟨S2400000, .i1⟩
  | .hbm, ⟨64, _⟩ => ⟨S_, .i32⟩
  | .hbm, ⟨65, _⟩ => ⟨S2400000, .i32⟩
  | .hbm, ⟨66, _⟩ => ⟨S2400000, .i32⟩
  | .hbm, ⟨67, _⟩ => ⟨S2400000, .i32⟩
  | .hbm, ⟨68, _⟩ => ⟨S2400000x1, .i32⟩
  | .hbm, ⟨69, _⟩ => ⟨S2400000x32, .f32⟩
  | .hbm, ⟨70, _⟩ => ⟨S2400000x1, .f32⟩
  | .hbm, ⟨71, _⟩ => ⟨S2400000x32, .f32⟩
  | .hbm, ⟨72, _⟩ => ⟨S2400000x32, .f32⟩
  | .hbm, ⟨73, _⟩ => ⟨S_, .f32⟩
  | .hbm, ⟨74, _⟩ => ⟨S140000x32, .f32⟩
  | .hbm, ⟨75, _⟩ => ⟨S2400000x1, .i32⟩
  | .hbm, ⟨76, _⟩ => ⟨S140000x32, .f32⟩
  | .hbm, ⟨77, _⟩ => ⟨S140000x32, .f32⟩
  | .hbm, ⟨78, _⟩ => ⟨S_, .i32⟩
  | .hbm, ⟨79, _⟩ => ⟨S2400000, .i32⟩
  | .hbm, ⟨80, _⟩ => ⟨S2400000, .i1⟩
  | .hbm, ⟨81, _⟩ => ⟨S_, .i32⟩
  | .hbm, ⟨82, _⟩ => ⟨S2400000, .i32⟩
  | .hbm, ⟨83, _⟩ => ⟨S2400000, .i32⟩
  | .hbm, ⟨84, _⟩ => ⟨S2400000, .i32⟩
  | .hbm, ⟨85, _⟩ => ⟨S2400000x1, .i32⟩
  | .hbm, ⟨86, _⟩ => ⟨S2400000x32, .f32⟩
  | .hbm, ⟨87, _⟩ => ⟨S2400000x1, .f32⟩
  | .hbm, ⟨88, _⟩ => ⟨S2400000x32, .f32⟩
  | .hbm, ⟨89, _⟩ => ⟨S2400000x32, .f32⟩
  | .hbm, ⟨90, _⟩ => ⟨S_, .f32⟩
  | .hbm, ⟨91, _⟩ => ⟨S140000x32, .f32⟩
  | .hbm, ⟨92, _⟩ => ⟨S2400000x1, .i32⟩
  | .hbm, ⟨93, _⟩ => ⟨S140000x32, .f32⟩
  | .hbm, ⟨94, _⟩ => ⟨S140000x32, .f32⟩
  | .hbm, ⟨95, _⟩ => ⟨S_, .f32⟩
  | .hbm, ⟨96, _⟩ => ⟨S140000x32, .f32⟩
  | .hbm, ⟨97, _⟩ => ⟨S140000x32, .f32⟩
  | .hbm, ⟨98, _⟩ => ⟨S100000x32, .f32⟩
  | .hbm, ⟨99, _⟩ => ⟨S40000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1x32_S40000x32_0_1 : S1x32.BroadcastsInDim S40000x32 (![0, 1] : Fin 2 → Fin S40000x32.rank)
  concatenates_S100000x32_S40000x32_S140000x32_d0 : Shape.Concatenates [S100000x32, S40000x32] S140000x32 0
  bcast_S_S1200000 : S_.BroadcastsInDim S1200000 (![] : Fin 0 → Fin S1200000.rank)
  concatenates_S1200000_S1200000_S2400000_d0 : Shape.Concatenates [S1200000, S1200000] S2400000 0
  bcast_S_S2400000 : S_.BroadcastsInDim S2400000 (![] : Fin 0 → Fin S2400000.rank)
  bcast_S_S140000 : S_.BroadcastsInDim S140000 (![] : Fin 0 → Fin S140000.rank)
  bcast_S2400000_S2400000x1_0 : S2400000.BroadcastsInDim S2400000x1 (![0] : Fin 1 → Fin S2400000x1.rank)
  bcast_S2400000x1_S2400000x32_0_1 : S2400000x1.BroadcastsInDim S2400000x32 (![0, 1] : Fin 2 → Fin S2400000x32.rank)
  bcast_S_S140000x32 : S_.BroadcastsInDim S140000x32 (![] : Fin 0 → Fin S140000x32.rank)
  slices_S140000x32_S100000x32_0_0 : S140000x32.Slices ![0, 0] S100000x32
  slices_S140000x32_S40000x32_100000_0 : S140000x32.Slices ![100000, 0] S40000x32
  dot_S100000x128_S128x32_S100000x32_1_0_0_1_n_n_wf : DotDims.WF S100000x128 S128x32 S100000x32 [1] [0] [0] [1] [] []
  dot_S40000x128_S128x32_S40000x32_1_0_0_1_n_n_wf : DotDims.WF S40000x128 S128x32 S40000x32 [1] [0] [0] [1] [] []
  scatter_S140000_S2400000x1_S2400000_n_0_0_1_wf : ScatterDims.WF S140000 S2400000x1 S2400000 [] [0] [0] 1
  gather_S140000_S2400000x1_S2400000_n_0_n_n_0_1_1_wf : GatherDims.WF S140000 S2400000x1 S2400000 [] [0] [] [0] [] 1 ![1]
  gather_S140000x32_S2400000x1_S2400000x32_1_0_n_n_0_1_132_wf : GatherDims.WF S140000x32 S2400000x1 S2400000x32 [1] [0] [] [0] [] 1 ![1, 32]
  scatter_S140000x32_S2400000x1_S2400000x32_1_0_0_1_wf : ScatterDims.WF S140000x32 S2400000x1 S2400000x32 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S40000x128_S128x32_S40000x32_1_0_0_1_n_n : DotDims S40000x128 S128x32 S40000x32 where
  lhsContracting := [1]
  rhsContracting := [0]
  lhsNonContracting := [0]
  rhsNonContracting := [1]
  lhsBatch := []
  rhsBatch := []
  wf := dot_S40000x128_S128x32_S40000x32_1_0_0_1_n_n_wf
def scatter_S140000_S2400000x1_S2400000_n_0_0_1 : ScatterDims S140000 S2400000x1 S2400000 where
  updateWindowDims := []
  insertedWindowDims := [0]
  scatterDimsToOperandDims := [0]
  indexVectorDim := 1
  wf := scatter_S140000_S2400000x1_S2400000_n_0_0_1_wf
def gather_S140000_S2400000x1_S2400000_n_0_n_n_0_1_1 : GatherDims S140000 S2400000x1 S2400000 where
  offsetDims := []
  collapsedSliceDims := [0]
  operandBatchingDims := []
  startIndicesBatchingDims := []
  startIndexMap := [0]
  indexVectorDim := 1
  sliceSizes := ![1]
  wf := gather_S140000_S2400000x1_S2400000_n_0_n_n_0_1_1_wf
def gather_S140000x32_S2400000x1_S2400000x32_1_0_n_n_0_1_132 : GatherDims S140000x32 S2400000x1 S2400000x32 where
  offsetDims := [1]
  collapsedSliceDims := [0]
  operandBatchingDims := []
  startIndicesBatchingDims := []
  startIndexMap := [0]
  indexVectorDim := 1
  sliceSizes := ![1, 32]
  wf := gather_S140000x32_S2400000x1_S2400000x32_1_0_n_n_0_1_132_wf
def scatter_S140000x32_S2400000x1_S2400000x32_1_0_0_1 : ScatterDims S140000x32 S2400000x1 S2400000x32 where
  updateWindowDims := [1]
  insertedWindowDims := [0]
  scatterDimsToOperandDims := [0]
  indexVectorDim := 1
  wf := scatter_S140000x32_S2400000x1_S2400000x32_1_0_0_1_wf

class Facts : Prop extends Facts₀ where

variable [Facts]
-- ==== Proof.KMid.lean ====
/-
  The edge propagation on the kernel's side, as functions of arrays.

  From the two edge arrays (user ids `eu`, item ids `ei`, 1200000 each) the host code builds the symmetric edge
  list of 2400000 directed edges — sources `eu ++ (ei + 100000)`, targets `(ei + 100000) ++ eu` —, the degree of
  every node as a sum of ones over the edges into it, the factor `1 / sqrt (max deg 1)` where the degree is
  positive and `0` elsewhere, and each edge's weight as the product of the two factors at its (wrapped) ends.
  One round gathers the rows of a node table at the wrapped sources, scales each by its edge's weight and adds
  them into a zero table at the targets. A negative id wraps once by the number of nodes, 140000.
-/
import proofs.«105421_j10754598109945_1_alg».proof.Proof.Gen.KernelIdeal

noncomputable section

namespace Cert.KernelIdeal.Mid

open Cert.KernelIdeal Cert.KernelIdeal.Gen Idealize.ShloMosaic

variable {F : FTy → Type} [FloatOps F] [Named F]

/-- The sources of the 2400000 directed edges. -/
def src (eu ei : (⟨S1200000, .i32⟩ : BufTy).Contents (Elt F)) : (⟨S2400000, .i32⟩ : BufTy).Contents (Elt F) :=
  concatenate S2400000 0 [⟨S1200000, eu⟩, ⟨S1200000, addi ei (broadcastInDim S1200000 ![] bcast_S_S1200000 (constantI S_ 32 100000#32))⟩] concatenates_S1200000_S1200000_S2400000_d0

/-- Their targets. -/
def dst (eu ei : (⟨S1200000, .i32⟩ : BufTy).Contents (Elt F)) : (⟨S2400000, .i32⟩ : BufTy).Contents (Elt F) :=
  concatenate S2400000 0 [⟨S1200000, addi ei (broadcastInDim S1200000 ![] bcast_S_S1200000 (constantI S_ 32 100000#32))⟩, ⟨S1200000, eu⟩] concatenates_S1200000_S1200000_S2400000_d0

/-- A negative id wraps once by the number of nodes. -/
def wrap (v : (⟨S2400000, .i32⟩ : BufTy).Contents (Elt F)) : (⟨S2400000, .i32⟩ : BufTy).Contents (Elt F) :=
  select (cmpi .slt v (broadcastInDim S2400000 ![] bcast_S_S2400000 (constantI S_ 32 0#32)))
    (addi v (broadcastInDim S2400000 ![] bcast_S_S2400000 (constantI S_ 32 140000#32))) v

/-- The degree of every node: ones summed over the edges into it. -/
def deg (d : (⟨S2400000, .i32⟩ : BufTy).Contents (Elt F)) : (⟨S140000, .f32⟩ : BufTy).Contents (Elt F) :=
  Host.scatterAdd scatter_S140000_S2400000x1_S2400000_n_0_0_1 (broadcastInDim S140000 ![] bcast_S_S140000 (constant S_ .f32 0x00000000#32))
    (broadcastInDim S2400000x1 ![0] bcast_S2400000_S2400000x1_0 d) (broadcastInDim S2400000 ![] bcast_S_S2400000 (constant S_ .f32 0x3F800000#32))

/-- Where the degree is positive. -/
def pos (d : (⟨S2400000, .i32⟩ : BufTy).Contents (Elt F)) : (⟨S140000, .i1⟩ : BufTy).Contents (Elt F) :=
  cmpf .ogt (deg (F := F) d) (broadcastInDim S140000 ![] bcast_S_S140000 (constant S_ .f32 0x00000000#32))

/-- The reciprocal square root of the degree raised to at least one. -/
def rsq (d : (⟨S2400000, .i32⟩ : BufTy).Contents (Elt F)) : (⟨S140000, .f32⟩ : BufTy).Contents (Elt F) :=
  Host.rsqrt (maximumf (deg (F := F) d) (broadcastInDim S140000 ![] bcast_S_S140000 (constant S_ .f32 0x3F800000#32)))

/-- A node's factor: that reciprocal root where the degree is positive, zero elsewhere. -/
def dinv (d : (⟨S2400000, .i32⟩ : BufTy).Contents (Elt F)) : (⟨S140000, .f32⟩ : BufTy).Contents (Elt F) :=
  select (pos (F := F) d) (rsq (F := F) d) (broadcastInDim S140000 ![] bcast_S_S140000 (id (constant S_ .f32 0x00000000#32)))

/-- An edge's weight: the factors at its two wrapped ends, multiplied. -/
def weight (s d : (⟨S2400000, .i32⟩ : BufTy).Contents (Elt F)) : (⟨S2400000, .f32⟩ : BufTy).Contents (Elt F) :=
  mulf (Host.gather gather_S140000_S2400000x1_S2400000_n_0_n_n_0_1_1 (dinv (F := F) d) (broadcastInDim S2400000x1 ![0] bcast_S2400000_S2400000x1_0 (wrap s)))
    (Host.gather gather_S140000_S2400000x1_S2400000_n_0_n_n_0_1_1 (dinv (F := F) d) (broadcastInDim S2400000x1 ![0] bcast_S2400000_S2400000x1_0 (wrap d)))

/-- One round: rows of `x` gathered at the wrapped sources, each times its edge's weight, summed into the targets. -/
def step (s d : (⟨S2400000, .i32⟩ : BufTy).Contents (Elt F)) (w : (⟨S2400000, .f32⟩ : BufTy).Contents (Elt F))
    (x : (⟨S140000x32, .f32⟩ : BufTy).Contents (Elt F)) : (⟨S140000x32, .f32⟩ : BufTy).Contents (Elt F) :=
  Host.scatterAdd scatter_S140000x32_S2400000x1_S2400000x32_1_0_0_1 (broadcastInDim S140000x32 ![] bcast_S_S140000x32 (constant S_ .f32 0x00000000#32))
    (broadcastInDim S2400000x1 ![0] bcast_S2400000_S2400000x1_0 d)
    (mulf (Host.gather gather_S140000x32_S2400000x1_S2400000x32_1_0_n_n_0_1_132 x (broadcastInDim S2400000x1 ![0] bcast_S2400000_S2400000x1_0 (wrap s)))
      (broadcastInDim S2400000x32 ![0, 1] bcast_S2400000x1_S2400000x32_0_1 (broadcastInDim S2400000x1 ![0] bcast_S2400000_S2400000x1_0 w)))

end Cert.KernelIdeal.Mid

end
-- ==== Proof.Spec.lean ====
/-
  The arithmetic both programs perform around the shared edge propagation, stated once, index by index,
  on the extended reals.

  * A projection: entry (r, j) of the projected table is the inner product of row r of the features
    with column j of the weights, plus the bias of column j.
  * The layer mean: every entry of the sum of the three layers times one third.
-/
import Idealize.ShloMosaic.PureOps.Ideal
import Idealize.ShloMosaic.Lib.ValueIdx

noncomputable section

open scoped BigOperators

namespace Cert.Spec

open Idealize.ShloMosaic Idealize.ShloMosaic.ValueIdx

/-- The user rows projected: `(x · w) (r, j) + b j`, the product an exact sum over the 128 features. -/
def affineU (x : Vec Ideal ⟨2, ![100000, 128]⟩ .f32) (w : Vec Ideal ⟨2, ![128, 32]⟩ .f32)
    (b : Vec Ideal ⟨1, ![32]⟩ .f32) : Vec Ideal ⟨2, ![100000, 32]⟩ .f32 :=
  fun i => (∑ k : Fin 128, x (ix2 (i 0) k) * w (ix2 k (i 1))) + b (ix1 (i 1))

/-- The item rows projected, the same formula over 40000 rows. -/
def affineI (x : Vec Ideal ⟨2, ![40000, 128]⟩ .f32) (w : Vec Ideal ⟨2, ![128, 32]⟩ .f32)
    (b : Vec Ideal ⟨1, ![32]⟩ .f32) : Vec Ideal ⟨2, ![40000, 32]⟩ .f32 :=
  fun i => (∑ k : Fin 128, x (ix2 (i 0) k) * w (ix2 k (i 1))) + b (ix1 (i 1))

/-- One third of every entry of the node table. -/
def third (a : Vec Ideal ⟨2, ![140000, 32]⟩ .f32) : Vec Ideal ⟨2, ![140000, 32]⟩ .f32 :=
  fun i => a i * ((1 / 3 : ℝ) : EReal)

end Cert.Spec

end
-- ==== Proof.Region2.lean ====
/-
  The first accumulation region, as one statement about whole arrays: when the region is left, its output
  table holds, entry by entry, the sum of its two input tables as the region found them.

  The region walks the 140000 rows in 175 blocks of 800 rows, all 32 columns at once. At block t each of the
  three windows (two inputs, one output) sits on rows 800·t … 800·t + 799, so what block t writes back is the
  restriction of the entrywise sum to those rows; the blocks tile the table (row r lies in block r / 800).
-/
import proofs.«105421_j10754598109945_1_alg».proof.Proof.Gen.KernelIdeal.Frame
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

variable {F : FTy → Type} [FloatOps F] [Named F]
variable (V : (c : Dev nD) → (b : Ref sig .tc) → Buf (Elt F) ((c : Thread nD τ).loc b))

theorem origin : (![0, 0] : Fin 2 → Nat) = fun _ => 0 := funext fun a => by fin_cases a <;> rfl

/-- The body's arithmetic: the two loaded blocks added entry by entry (the two casts are to the same shape). -/
theorem pay_eq (x0 x1 : Vec F S800x32 .f32) : k2_pay1 x0 x1 = addf x0 x1 := by
  unfold k2_pay1
  simp only [shapeCast_self]

/-- The three windows move together: at point t each sits on block (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the entrywise sum of the two input tables as the region finds them. -/
theorem flushed_eq (c : Dev nD) (t : Fin cfg2.N) :
    (dat2 V c).flushed 2 t = ((cfg2.win 2).blk t).view.read (Elt F) (addf (V c main_v4) (V c main_v48)) := by
  show (cfg2.win 2).cut (grid2.coords t) ((dat2 V c).after 2 t) = _
  rw [after2_2]
  unfold out2_2
  rw [View.canon_unit_zero origin]
  simp only [View.ld_unit_zero (S := S800x32) origin]
  rw [pay_eq]
  obtain ⟨e0, e1, e2, e3, e4, e5⟩ := idx_facts t
  funext j
  show FloatOps.addf (V c main_v4 (((cfg2.win 0).blk t).view.emb j)) (V c main_v48 (((cfg2.win 1).blk t).view.emb j))
    = FloatOps.addf (V c main_v4 (((cfg2.win 2).blk t).view.emb j)) (V c main_v48 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 800 + 1 * (j 0).val = win2_2.index t (0 : Fin 2) * 800 + 1 * (j 0).val; omega
    | ⟨1, _⟩ => show win2_0.index t (1 : Fin 2) * 32 + 1 * (j 1).val = win2_2.index t (1 : Fin 2) * 32 + 1 * (j 1).val; omega
  have h1 : ((cfg2.win 1).blk t).view.emb j = ((cfg2.win 2).blk t).view.emb j := by
    funext a; apply Fin.ext
    match a with
    | ⟨0, _⟩ => show win2_1.index t (0 : Fin 2) * 800 + 1 * (j 0).val = win2_2.index t (0 : Fin 2) * 800 + 1 * (j 0).val; omega
    | ⟨1, _⟩ => show win2_1.index t (1 : Fin 2) * 32 + 1 * (j 1).val = win2_2.index t (1 : Fin 2) * 32 + 1 * (j 1).val; omega
  rw [h0, h1]

/-- An entry of the table is in point t's block iff each coordinate is in the block's range on its axis. -/
theorem mem_blk (t : Fin cfg2.N) (i : S140000x32.Idx) :
    i ∈ ((cfg2.win 2).blk t).view.set ↔ ∀ a : Fin 2, win2_2.index t a * S800x32.size a ≤ (i a).val ∧ (i a).val < win2_2.index t a * S800x32.size a + S800x32.size a := by
  show i ∈ ((View.whole main_v49).slice (win2_2.rect t)).set ↔ _
  rw [View.set_slice_whole, Rect.mem_set_unit]
  exact Iff.rfl

/-- Every entry is written back by some point: row r by point r / 800. -/
theorem cover (i : S140000x32.Idx) :
    ∃ t : Fin cfg2.N, (cfg2.win 2).flush t = true ∧ i ∈ ((cfg2.win 2).blk t).view.set := by
  have hi0 : (i 0).val < 140000 := (i 0).isLt
  have hi1 : (i 1).val < 32 := (i 1).isLt
  refine ⟨⟨(i 0).val / 800, by show (i 0).val / 800 < 175; omega⟩, flush2_2 _, ?_⟩
  rw [mem_blk]
  obtain ⟨e0, e1, e2, e3, e4, e5⟩ := idx_facts ⟨(i 0).val / 800, by show (i 0).val / 800 < 175; omega⟩
  intro a
  match a with
  | ⟨0, _⟩ => show win2_2.index _ (0 : Fin 2) * 800 ≤ (i 0).val ∧ (i 0).val < win2_2.index _ (0 : Fin 2) * 800 + 800; rw [e4]; show (i 0).val / 800 * 800 ≤ (i 0).val ∧ (i 0).val < (i 0).val / 800 * 800 + 800; omega
  | ⟨1, _⟩ => show win2_2.index _ (1 : Fin 2) * 32 ≤ (i 1).val ∧ (i 1).val < win2_2.index _ (1 : Fin 2) * 32 + 32; rw [e5]; omega

/-- THE TABLE after the region: the entrywise sum of the two input tables as the region found them. -/
theorem final (c : Dev nD) : (dat2 V c).arrAt 2 cfg2.N = addf (V c main_v4) (V c main_v48) :=
  (dat2 V c).arrAt_eq_of_cover 2 _ (fun t _ => flushed_eq V c t) (cover)

end Cert.KernelIdeal.Region2

end
-- ==== Proof.Region3.lean ====
/-
  The second accumulation region, as one statement about whole arrays: when the region is left, its output
  table holds, entry by entry, the sum of its two input tables as the region found them.

  The region walks the 140000 rows in 175 blocks of 800 rows, all 32 columns at once. At block t each of the
  three windows (two inputs, one output) sits on rows 800·t … 800·t + 799, so what block t writes back is the
  restriction of the entrywise sum to those rows; the blocks tile the table (row r lies in block r / 800).
-/
import proofs.«105421_j10754598109945_1_alg».proof.Proof.Gen.KernelIdeal.Frame
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)

variable {F : FTy → Type} [FloatOps F] [Named F]
variable (V : (c : Dev nD) → (b : Ref sig .tc) → Buf (Elt F) ((c : Thread nD τ).loc b))

theorem origin : (![0, 0] : Fin 2 → Nat) = fun _ => 0 := funext fun a => by fin_cases a <;> rfl

/-- The body's arithmetic: the two loaded blocks added entry by entry (the two casts are to the same shape). -/
theorem pay_eq (x0 x1 : Vec F S800x32 .f32) : k3_pay1 x0 x1 = addf x0 x1 := by
  unfold k3_pay1
  simp only [shapeCast_self]

/-- The three windows move together: at point t each sits on block (t, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the entrywise sum of the two input tables as the region finds them. -/
theorem flushed_eq (c : Dev nD) (t : Fin cfg3.N) :
    (dat3 V c).flushed 2 t = ((cfg3.win 2).blk t).view.read (Elt F) (addf (V c main_v49) (V c main_v62)) := by
  show (cfg3.win 2).cut (grid3.coords t) ((dat3 V c).after 2 t) = _
  rw [after3_2]
  unfold out3_2
  rw [View.canon_unit_zero origin]
  simp only [View.ld_unit_zero (S := S800x32) origin]
  rw [pay_eq]
  obtain ⟨e0, e1, e2, e3, e4, e5⟩ := idx_facts t
  funext j
  show FloatOps.addf (V c main_v49 (((cfg3.win 0).blk t).view.emb j)) (V c main_v62 (((cfg3.win 1).blk t).view.emb j))
    = FloatOps.addf (V c main_v49 (((cfg3.win 2).blk t).view.emb j)) (V c main_v62 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 800 + 1 * (j 0).val = win3_2.index t (0 : Fin 2) * 800 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb j = ((cfg3.win 2).blk t).view.emb j := by
    funext a; apply Fin.ext
    match a with
    | ⟨0, _⟩ => show win3_1.index t (0 : Fin 2) * 800 + 1 * (j 0).val = win3_2.index t (0 : Fin 2) * 800 + 1 * (j 0).val; omega
    | ⟨1, _⟩ => show win3_1.index t (1 : Fin 2) * 32 + 1 * (j 1).val = win3_2.index t (1 : Fin 2) * 32 + 1 * (j 1).val; omega
  rw [h0, h1]

/-- An entry of the table is in point t's block iff each coordinate is in the block's range on its axis. -/
theorem mem_blk (t : Fin cfg3.N) (i : S140000x32.Idx) :
    i ∈ ((cfg3.win 2).blk t).view.set ↔ ∀ a : Fin 2, win3_2.index t a * S800x32.size a ≤ (i a).val ∧ (i a).val < win3_2.index t a * S800x32.size a + S800x32.size a := by
  show i ∈ ((View.whole main_v63).slice (win3_2.rect t)).set ↔ _
  rw [View.set_slice_whole, Rect.mem_set_unit]
  exact Iff.rfl

/-- Every entry is written back by some point: row r by point r / 800. -/
theorem cover (i : S140000x32.Idx) :
    ∃ t : Fin cfg3.N, (cfg3.win 2).flush t = true ∧ i ∈ ((cfg3.win 2).blk t).view.set := by
  have hi0 : (i 0).val < 140000 := (i 0).isLt
  have hi1 : (i 1).val < 32 := (i 1).isLt
  refine ⟨⟨(i 0).val / 800, by show (i 0).val / 800 < 175; omega⟩, flush3_2 _, ?_⟩
  rw [mem_blk]
  obtain ⟨e0, e1, e2, e3, e4, e5⟩ := idx_facts ⟨(i 0).val / 800, by show (i 0).val / 800 < 175; omega⟩
  intro a
  match a with
  | ⟨0, _⟩ => show win3_2.index _ (0 : Fin 2) * 800 ≤ (i 0).val ∧ (i 0).val < win3_2.index _ (0 : Fin 2) * 800 + 800; rw [e4]; show (i 0).val / 800 * 800 ≤ (i 0).val ∧ (i 0).val < (i 0).val / 800 * 800 + 800; omega
  | ⟨1, _⟩ => show win3_2.index _ (1 : Fin 2) * 32 ≤ (i 1).val ∧ (i 1).val < win3_2.index _ (1 : Fin 2) * 32 + 32; rw [e5]; omega

/-- THE TABLE after the region: the entrywise sum of the two input tables as the region found them. -/
theorem final (c : Dev nD) : (dat3 V c).arrAt 2 cfg3.N = addf (V c main_v49) (V c main_v62) :=
  (dat3 V c).arrAt_eq_of_cover 2 _ (fun t _ => flushed_eq V c t) (cover)

end Cert.KernelIdeal.Region3

end
-- ==== Proof.Region4.lean ====
/-
  The scaling region, as one statement about whole arrays: when the region is left, its output table holds,
  entry by entry, one third of its input table as the region found it.

  The region walks the 140000 rows in 175 blocks of 800 rows. Its body multiplies the loaded block by a splat of
  the constant the certificate names "inv_3", which on the extended reals IS the rational 1/3 (the certificate's
  table gives the name that value). Block t of input and output sit on the same rows, and the blocks tile the table.
-/
import proofs.«105421_j10754598109945_1_alg».proof.Proof.Gen.KernelIdeal.Frame
import proofs.«105421_j10754598109945_1_alg».proof.Proof.Spec
import Idealize.ShloMosaic.Lib.Pipeline.Value
import Idealize.ShloMosaic.Lib.ValueIdx
import Idealize.ShloMosaic.PureOps.IdealRules

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The input table as the region finds it, at its literal type. -/
abbrev tab (c : Dev nD) : Vec Ideal S140000x32 .f32 := V c main_v63

theorem origin : (![0, 0] : Fin 2 → Nat) = fun _ => 0 := funext fun a => by fin_cases a <;> rfl

/-- The named constant is the rational one third, by the certificate's table. -/
theorem inv_3 : Named.named (F := Ideal) κ "inv_3" (φ := .f32) 0x3EAAAAAB#32 = ((1 / 3 : ℝ) : EReal) :=
  IdealRules.named_const.ideal_named_scalar _ _ _ _ rfl

/-- The body's arithmetic at an entry: the loaded entry times one third. -/
theorem pay_apply (x0 : Vec Ideal S800x32 .f32) (j : S800x32.Idx) :
    k4_pay1 (F := Ideal) x0 j = x0 j * ((1 / 3 : ℝ) : EReal) := by
  unfold k4_pay1
  simp only [shapeCast_self]
  show FloatOps.mulf (x0 j) (Named.named (F := Ideal) κ "inv_3" (φ := .f32) 0x3EAAAAAB#32) = _
  rw [inv_3]
  rfl

/-- The two windows move together: at point t each sits on block (t, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- What point t writes back is block t of a third of the input table as the region finds it. -/
theorem flushed_eq (c : Dev nD) (t : Fin cfg4.N) :
    (dat4 (F := Ideal) V c).flushed 1 t = ((cfg4.win 1).blk t).view.read (Elt Ideal) (Cert.Spec.third (V c main_v63)) := by
  show (cfg4.win 1).cut (grid4.coords t) ((dat4 (F := Ideal) V c).after 1 t) = _
  rw [after4_1]
  unfold out4_1
  rw [View.canon_unit_zero origin]
  simp only [View.ld_unit_zero (S := S800x32) origin]
  obtain ⟨e0, e1, e2, e3⟩ := idx_facts t
  funext j
  show k4_pay1 (F := Ideal) (iblk4 V c 0 t) j = Cert.Spec.third (V c main_v63) (((cfg4.win 1).blk t).view.emb j)
  refine (pay_apply (iblk4 V c 0 t) j).trans ?_
  show tab V c (((cfg4.win 0).blk t).view.emb j) * ((1 / 3 : ℝ) : EReal)
    = tab V c (((cfg4.win 1).blk t).view.emb j) * ((1 / 3 : ℝ) : EReal)
  have h0 : ((cfg4.win 0).blk t).view.emb j = ((cfg4.win 1).blk t).view.emb j := by
    funext a; apply Fin.ext
    match a with
    | ⟨0, _⟩ => show win4_0.index t (0 : Fin 2) * 800 + 1 * (j 0).val = win4_1.index t (0 : Fin 2) * 800 + 1 * (j 0).val; omega
    | ⟨1, _⟩ => show win4_0.index t (1 : Fin 2) * 32 + 1 * (j 1).val = win4_1.index t (1 : Fin 2) * 32 + 1 * (j 1).val; omega
  rw [h0]

/-- An entry of the table is in point t's block iff each coordinate is in the block's range on its axis. -/
theorem mem_blk (t : Fin cfg4.N) (i : S140000x32.Idx) :
    i ∈ ((cfg4.win 1).blk t).view.set ↔ ∀ a : Fin 2, win4_1.index t a * S800x32.size a ≤ (i a).val ∧ (i a).val < win4_1.index t a * S800x32.size a + S800x32.size a := by
  show i ∈ ((View.whole main_v64).slice (win4_1.rect t)).set ↔ _
  rw [View.set_slice_whole, Rect.mem_set_unit]
  exact Iff.rfl

/-- Every entry is written back by some point: row r by point r / 800. -/
theorem cover (i : S140000x32.Idx) :
    ∃ t : Fin cfg4.N, (cfg4.win 1).flush t = true ∧ i ∈ ((cfg4.win 1).blk t).view.set := by
  have hi0 : (i 0).val < 140000 := (i 0).isLt
  have hi1 : (i 1).val < 32 := (i 1).isLt
  refine ⟨⟨(i 0).val / 800, by show (i 0).val / 800 < 175; omega⟩, flush4_1 _, ?_⟩
  rw [mem_blk]
  obtain ⟨e0, e1, e2, e3⟩ := idx_facts ⟨(i 0).val / 800, by show (i 0).val / 800 < 175; omega⟩
  intro a
  match a with
  | ⟨0, _⟩ => show win4_1.index _ (0 : Fin 2) * 800 ≤ (i 0).val ∧ (i 0).val < win4_1.index _ (0 : Fin 2) * 800 + 800; rw [e2]; show (i 0).val / 800 * 800 ≤ (i 0).val ∧ (i 0).val < (i 0).val / 800 * 800 + 800; omega
  | ⟨1, _⟩ => show win4_1.index _ (1 : Fin 2) * 32 ≤ (i 1).val ∧ (i 1).val < win4_1.index _ (1 : Fin 2) * 32 + 32; rw [e3]; omega

/-- THE TABLE after the region: a third of the input table as the region found it. -/
theorem final (c : Dev nD) : (dat4 (F := Ideal) V c).arrAt 1 cfg4.N = Cert.Spec.third (V c main_v63) :=
  (dat4 (F := Ideal) V c).arrAt_eq_of_cover 1 _ (fun t _ => flushed_eq V c t) (cover)

end Cert.KernelIdeal.Region4

end
-- ==== Proof.Fold.lean ====
/-
  The kernel program's two results, read back through its twelve segments to the contents the second projection
  region leaves (`W4`).

  Writing z for the two projected tables joined, s and d for the sources and targets of the directed edges, and w for
  the edge weights, the segments after the projections compute, in order: z, s, d, w and the first round step z (host
  operations); acc₁ = z + step z (the first accumulation region, by its whole-array statement); the second round
  step (step z) (host operations, from the first round's table as the region left it); acc₂ = acc₁ + step (step z)
  (the second accumulation region); a third of acc₂ (the scaling region); and the two results as its first 100000
  and its last 40000 rows. A buffer no later segment writes keeps its contents across that segment.
-/
import proofs.«105421_j10754598109945_1_alg».proof.Proof.Gen.KernelIdeal.Frame
import proofs.«105421_j10754598109945_1_alg».proof.Proof.KMid
import proofs.«105421_j10754598109945_1_alg».proof.Proof.Spec
import proofs.«105421_j10754598109945_1_alg».proof.Proof.Region2
import proofs.«105421_j10754598109945_1_alg».proof.Proof.Region3
import proofs.«105421_j10754598109945_1_alg».proof.Proof.Region4
import Idealize.ShloMosaic.Lib.StableHlo.Run

set_option maxRecDepth 16384

noncomputable section

namespace Cert.KernelIdeal.Fold

open Cert.KernelIdeal Cert.KernelIdeal.Gen Cert.KernelIdeal.Mid
open Idealize.ShloMosaic Idealize.ShloMosaic.TcCoe Idealize.SL.Sem Idealize.ShloMosaic.StableHlo

section AnyFloats

variable {F : FTy → Type} [FloatOps F] [Named F]
variable (m : (ℓ : Loc nD τ sig) → Buf (Elt F) ℓ) (ρ : Dev nD → PrngReg)

/-- The node table: the two projected tables as the second projection region leaves them, joined. -/
abbrev tbl (c : Dev nD) : (⟨S140000x32, .f32⟩ : BufTy).Contents (Elt F) :=
  concatenate S140000x32 0 [⟨S100000x32, W4 m ρ c (Proc.devRef .tc main_v1)⟩, ⟨S40000x32, W4 m ρ c (Proc.devRef .tc main_v3)⟩] concatenates_S100000x32_S40000x32_S140000x32_d0
/-- The sources and the targets of the directed edges, from the two edge arrays as they stand there. -/
abbrev es (c : Dev nD) : (⟨S2400000, .i32⟩ : BufTy).Contents (Elt F) := src (W4 m ρ c (Proc.devRef .tc main_arg2)) (W4 m ρ c (Proc.devRef .tc main_arg3))
abbrev ed (c : Dev nD) : (⟨S2400000, .i32⟩ : BufTy).Contents (Elt F) := dst (W4 m ρ c (Proc.devRef .tc main_arg2)) (W4 m ρ c (Proc.devRef .tc main_arg3))
/-- The edge weights. -/
abbrev ew (c : Dev nD) : (⟨S2400000, .f32⟩ : BufTy).Contents (Elt F) := weight (es m ρ c) (ed m ρ c)

/-! ## Before the first accumulation region: the host operations from `W4` -/

theorem W7_v4 (c : Dev nD) : W7 m ρ c (Proc.devRef .tc main_v4) = tbl m ρ c := by
  show StableHlo.after hostOps2_2 (StableHlo.after hostOps2_1 (StableHlo.after hostOps2 (W4 m ρ c))) (Proc.devRef .tc main_v4) = _
  after_results_simp <;> rfl

theorem W7_v7 (c : Dev nD) : W7 m ρ c (Proc.devRef .tc main_v7) = es m ρ c := by
  show StableHlo.after hostOps2_2 (StableHlo.after hostOps2_1 (StableHlo.after hostOps2 (W4 m ρ c))) (Proc.devRef .tc main_v7) = _
  after_results_simp <;> rfl

theorem W7_v10 (c : Dev nD) : W7 m ρ c (Proc.devRef .tc main_v10) = ed m ρ c := by
  show StableHlo.after hostOps2_2 (StableHlo.after hostOps2_1 (StableHlo.after hostOps2 (W4 m ρ c))) (Proc.devRef .tc main_v10) = _
  after_results_simp <;> rfl

theorem W7_v35 (c : Dev nD) : W7 m ρ c (Proc.devRef .tc main_v35) = ew m ρ c := by
  show StableHlo.after hostOps2_2 (StableHlo.after hostOps2_1 (StableHlo.after hostOps2 (W4 m ρ c))) (Proc.devRef .tc main_v35) = _
  after_results_simp <;> rfl

theorem W7_v48 (c : Dev nD) : W7 m ρ c (Proc.devRef .tc main_v48) = step (es m ρ c) (ed m ρ c) (ew m ρ c) (tbl m ρ c) := by
  show StableHlo.after hostOps2_2 (StableHlo.after hostOps2_1 (StableHlo.after hostOps2 (W4 m ρ c))) (Proc.devRef .tc main_v48) = _
  after_results_simp <;> rfl

/-! ## Across the first accumulation region -/

/-- The region's output: the entrywise sum of the table and the first round. -/
theorem W8_v49 (c : Dev nD) : W8 m ρ c (Proc.devRef .tc main_v49) = addf (F := F) (s := S140000x32) (φ := .f32) (W7 m ρ c (Proc.devRef .tc main_v4)) (W7 m ρ c (Proc.devRef .tc main_v48)) :=
  (W8_arr m ρ c 2).trans (Region2.final (V7 m ρ) c)

/-- The first round's table is an input of the region: it leaves it as found. -/
theorem W8_v48 (c : Dev nD) : W8 m ρ c (Proc.devRef .tc main_v48) = W7 m ρ c (Proc.devRef .tc main_v48) :=
  (W8_arr m ρ c 1).trans (((dat2 (V7 m ρ) c).arrAt_in 1 rfl _).trans (A_eq2 (V7 m ρ) c 1))

/-- The edge arrays and the weights are not the region's: they keep their contents. -/
theorem W8_v7 (c : Dev nD) : W8 m ρ c (Proc.devRef .tc main_v7) = W7 m ρ c (Proc.devRef .tc main_v7) := W8_of_ne m ρ c main_v7 (by decide)
theorem W8_v10 (c : Dev nD) : W8 m ρ c (Proc.devRef .tc main_v10) = W7 m ρ c (Proc.devRef .tc main_v10) := W8_of_ne m ρ c main_v10 (by decide)
theorem W8_v35 (c : Dev nD) : W8 m ρ c (Proc.devRef .tc main_v35) = W7 m ρ c (Proc.devRef .tc main_v35) := W8_of_ne m ρ c main_v35 (by decide)

/-! ## The second round: the host operations between the two accumulation regions -/

theorem W9_v62 (c : Dev nD) : W9 m ρ c (Proc.devRef .tc main_v62)
    = step (W8 m ρ c (Proc.devRef .tc main_v7)) (W8 m ρ c (Proc.devRef .tc main_v10)) (W8 m ρ c (Proc.devRef .tc main_v35)) (W8 m ρ c (Proc.devRef .tc main_v48)) := by
  show StableHlo.after hostOps3 (W8 m ρ c) (Proc.devRef .tc main_v62) = _
  after_results_simp <;> rfl

theorem W9_v49 (c : Dev nD) : W9 m ρ c (Proc.devRef .tc main_v49) = W8 m ρ c (Proc.devRef .tc main_v49) := by
  show StableHlo.after hostOps3 (W8 m ρ c) (Proc.devRef .tc main_v49) = _
  after_results_simp <;> rfl

/-! ## Across the second accumulation region -/

theorem W10_v63 (c : Dev nD) : W10 m ρ c (Proc.devRef .tc main_v63) = addf (F := F) (s := S140000x32) (φ := .f32) (W9 m ρ c (Proc.devRef .tc main_v49)) (W9 m ρ c (Proc.devRef .tc main_v62)) :=
  (W10_arr m ρ c 2).trans (Region3.final (V9 m ρ) c)

/-- The sum of the three layers, from the table, the edges and the weights as they stand after the projections. -/
abbrev layers (c : Dev nD) : (⟨S140000x32, .f32⟩ : BufTy).Contents (Elt F) :=
  addf (F := F) (s := S140000x32) (φ := .f32) (addf (F := F) (s := S140000x32) (φ := .f32) (tbl m ρ c) (step (es m ρ c) (ed m ρ c) (ew m ρ c) (tbl m ρ c)))
    (step (es m ρ c) (ed m ρ c) (ew m ρ c) (step (es m ρ c) (ed m ρ c) (ew m ρ c) (tbl m ρ c)))

/-- The second accumulation region leaves the sum of the three layers. -/
theorem W10_layers (c : Dev nD) : W10 m ρ c (Proc.devRef .tc main_v63) = layers m ρ c := by
  rw [W10_v63, W9_v49, W9_v62, W8_v49, W8_v48, W8_v7, W8_v10, W8_v35, W7_v48, W7_v4, W7_v7, W7_v10, W7_v35]

end AnyFloats

section OnTheExtendedReals

variable (m : (ℓ : Loc nD τ sig) → Buf (Elt Ideal) ℓ) (ρ : Dev nD → PrngReg)

/-! ## The scaling region and the two results -/

theorem W11_v64 (c : Dev nD) : W11 m ρ c (Proc.devRef .tc main_v64) = Cert.Spec.third (W10 m ρ c (Proc.devRef .tc main_v63)) :=
  (W11_arr m ρ c 1).trans (Region4.final (V10 m ρ) c)

theorem W12_v65 (c : Dev nD) : W12 m ρ c (Proc.devRef .tc main_v65)
    = extractStridedSlice S100000x32 ![0, 0] (W11 m ρ c (Proc.devRef .tc main_v64)) slices_S140000x32_S100000x32_0_0 := by
  show StableHlo.after hostOps5 (W11 m ρ c) (Proc.devRef .tc main_v65) = _
  after_results_simp <;> rfl

theorem W12_v66 (c : Dev nD) : W12 m ρ c (Proc.devRef .tc main_v66)
    = extractStridedSlice S40000x32 ![100000, 0] (W11 m ρ c (Proc.devRef .tc main_v64)) slices_S140000x32_S40000x32_100000_0 := by
  show StableHlo.after hostOps5 (W11 m ρ c) (Proc.devRef .tc main_v66) = _
  after_results_simp <;> rfl

/-- THE FIRST RESULT: the first 100000 rows of a third of the sum of the three layers. -/
theorem result_users (c : Dev nD) : W12 m ρ c (Proc.devRef .tc main_v65)
    = extractStridedSlice S100000x32 ![0, 0] (Cert.Spec.third (layers m ρ c)) slices_S140000x32_S100000x32_0_0 := by
  rw [W12_v65, W11_v64, W10_layers]

/-- THE SECOND RESULT: its last 40000 rows. -/
theorem result_items (c : Dev nD) : W12 m ρ c (Proc.devRef .tc main_v66)
    = extractStridedSlice S40000x32 ![100000, 0] (Cert.Spec.third (layers m ρ c)) slices_S140000x32_S40000x32_100000_0 := by
  rw [W12_v66, W11_v64, W10_layers]

end OnTheExtendedReals

end Cert.KernelIdeal.Fold

end
-- ==== Proof.Region0.lean ====
/-
  The first projection region, as one statement about whole arrays: when the region is left, its output table
  holds, entry by entry, the rows of its feature input times the weight matrix plus the bias row, all three as the
  region found them:

      out (r, q) = (∑ k < 128, x (r, k) · w (k, q)) + b (0, q).

  The region walks the 100000 rows in 125 blocks of 800 rows. At block t the row window sits on rows
  800·t … 800·t + 799 of x (all 128 columns), the weight window on the whole 128 × 32 matrix, the bias window on
  the whole 1 × 32 row, and the output window on rows 800·t … 800·t + 799 of the table (all 32 columns). The
  body multiplies the row block by the matrix into a zero accumulator — on the extended reals the two narrowing
  casts are the identity and the product is the exact sum over the 128 features — and adds the bias row spread over
  the 800 rows. So what block t writes back is the restriction of the projected table to those rows; the blocks
  tile the table (row r lies in block r / 800).
-/
import proofs.«105421_j10754598109945_1_alg».proof.Proof.Gen.KernelIdeal.Frame
import proofs.«105421_j10754598109945_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-- The offsets of a whole-block access: zero on both axes. -/
theorem origin : (![0, 0] : Fin 2 → Nat) = fun _ => 0 := funext fun a => by fin_cases a <;> rfl

/-- The product's operand indices, axis by axis: at output entry i and contraction index q the left operand is
    read at (i 0, q) and the right operand at (q, i 1). -/
theorem lhs_row (i : S800x32.Idx) (q : dot_S800x128_S128x32_S800x32_1_0_0_1_n_n.contr.Idx) :
    (dot_S800x128_S128x32_S800x32_1_0_0_1_n_n.lhsIdx i q 0).val = (i 0).val := by
  unfold DotDims.lhsIdx
  rw [dif_neg (show ¬(0 : Fin S800x128.rank) ∈ dot_S800x128_S128x32_S800x32_1_0_0_1_n_n.lhsBatch by decide), dif_pos (show (0 : Fin S800x128.rank) ∈ dot_S800x128_S128x32_S800x32_1_0_0_1_n_n.lhsNonContracting by decide)]
  rfl
theorem lhs_contr (i : S800x32.Idx) (q : dot_S800x128_S128x32_S800x32_1_0_0_1_n_n.contr.Idx) :
    (dot_S800x128_S128x32_S800x32_1_0_0_1_n_n.lhsIdx i q 1).val = (q ⟨0, by decide⟩).val :=
  dot_S800x128_S128x32_S800x32_1_0_0_1_n_n.lhsIdx_val_of_single rfl i q
theorem rhs_contr (i : S800x32.Idx) (q : dot_S800x128_S128x32_S800x32_1_0_0_1_n_n.contr.Idx) :
    (dot_S800x128_S128x32_S800x32_1_0_0_1_n_n.rhsIdx i q 0).val = (q ⟨0, by decide⟩).val :=
  dot_S800x128_S128x32_S800x32_1_0_0_1_n_n.rhsIdx_val_of_single rfl i q
theorem rhs_col (i : S800x32.Idx) (q : dot_S800x128_S128x32_S800x32_1_0_0_1_n_n.contr.Idx) :
    (dot_S800x128_S128x32_S800x32_1_0_0_1_n_n.rhsIdx i q 1).val = (i 1).val := by
  unfold DotDims.rhsIdx
  rw [dif_neg (show ¬(1 : Fin S128x32.rank) ∈ dot_S800x128_S128x32_S800x32_1_0_0_1_n_n.rhsBatch by decide), dif_pos (show (1 : Fin S128x32.rank) ∈ dot_S800x128_S128x32_S800x32_1_0_0_1_n_n.rhsNonContracting by decide)]
  rfl

/-- The product into the zero accumulator, entry (p, q): the inner product of row p with column q. -/
theorem dot_apply (a : FVec Ideal S800x128 .bf16) (b : FVec Ideal S128x32 .bf16) (j : S800x32.Idx) :
    matmul (F := Ideal) dot_S800x128_S128x32_S800x32_1_0_0_1_n_n none a b (constant (F := Ideal) S800x32 .f32 0x00000000#32) j
      = ∑ k : Fin 128, a (ix2 (j 0) k) * b (ix2 k (j 1)) := by
  refine (Ideal.matmul_constant_zero_apply dot_S800x128_S128x32_S800x32_1_0_0_1_n_n none a b j).trans ?_
  rw [← Equiv.sum_comp (ValueIdx.contrEquiv1 dot_S800x128_S128x32_S800x32_1_0_0_1_n_n 128 rfl rfl).symm]
  refine Finset.sum_congr rfl fun k _ => ?_
  have hk := ValueIdx.contrEquiv1_symm_val dot_S800x128_S128x32_S800x32_1_0_0_1_n_n 128 rfl rfl k
  have el : dot_S800x128_S128x32_S800x32_1_0_0_1_n_n.lhsIdx j ((ValueIdx.contrEquiv1 dot_S800x128_S128x32_S800x32_1_0_0_1_n_n 128 rfl rfl).symm k) = ix2 (j 0) k := funext fun a => Fin.ext (by
    match a with
    | ⟨0, _⟩ => exact lhs_row _ _
    | ⟨1, _⟩ => exact (lhs_contr _ _).trans hk)
  have er : dot_S800x128_S128x32_S800x32_1_0_0_1_n_n.rhsIdx j ((ValueIdx.contrEquiv1 dot_S800x128_S128x32_S800x32_1_0_0_1_n_n 128 rfl rfl).symm k) = ix2 k (j 1) := funext fun a => Fin.ext (by
    match a with
    | ⟨0, _⟩ => exact (rhs_contr _ _).trans hk
    | ⟨1, _⟩ => exact rhs_col _ _)
  rw [el, er]
  rfl

/-- The bias row spread over the 800 rows, entry (p, q): the row's entry q. -/
theorem bias_apply (x2 : Vec Ideal S1x32 .f32) (j : S800x32.Idx) :
    broadcastTo S800x32 x2 broadcasts_S1x32_S800x32 j = x2 (ix2 (0 : Fin 1) (j 1)) := by
  refine broadcastTo_apply x2 broadcasts_S1x32_S800x32 j (ix2 (0 : Fin 1) (j 1)) (fun a => ?_)
  match a with
  | ⟨0, _⟩ => rfl
  | ⟨1, _⟩ => rfl

/-- The body's arithmetic at entry (p, q): the inner product of row p of the loaded rows with column q of the
    weights, plus the bias of column q. -/
theorem pay_apply (x0 : Vec Ideal S800x128 .f32) (x1 : Vec Ideal S128x32 .f32) (x2 : Vec Ideal S1x32 .f32) (j : S800x32.Idx) :
    k0_pay1 (F := Ideal) x0 x1 x2 j = (∑ k : Fin 128, x0 (ix2 (j 0) k) * x1 (ix2 k (j 1))) + x2 (ix2 (0 : Fin 1) (j 1)) := by
  unfold k0_pay1
  show matmul (F := Ideal) dot_S800x128_S128x32_S800x32_1_0_0_1_n_n none (truncf .bf16 x0 bitsLt_bf16_f32) (truncf .bf16 x1 bitsLt_bf16_f32) (constant (F := Ideal) S800x32 .f32 0x00000000#32) j
      + broadcastTo S800x32 (shapeCast S1x32 x2 shapeCasts_S1x32_S1x32) broadcasts_S1x32_S800x32 j = _
  rw [shapeCast_self, bias_apply, dot_apply]
  rfl

/-- Where the windows sit: at point t the row window and the output window sit on block (t, 0); the weight matrix
    and the bias row are one block each, (0, 0), at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of what point t computes. From the three windows' blocks of tables X, W and the row B, the body's
    entry (p, q) is entry (800·t + p, q) of the projection of X by W and B: the row window's block holds rows
    800·t … 800·t + 799 of X, and the other two windows hold all of W and all of B. -/
theorem block_eq (X : Vec Ideal S100000x128 .f32) (W : Vec Ideal S128x32 .f32) (B : Vec Ideal S1x32 .f32)
    (t : Fin cfg0.N) (j : S800x32.Idx) (i : S100000x32.Idx)
    (hi0 : (i 0).val = t.val * 800 + (j 0).val) (hi1 : (i 1).val = (j 1).val) :
    k0_pay1 (F := Ideal) (((cfg0.win 0).blk t).view.read (Elt Ideal) X) (((cfg0.win 1).blk t).view.read (Elt Ideal) W)
        (((cfg0.win 2).blk t).view.read (Elt Ideal) B) j
      = Cert.Spec.affineU X W (fun l => B (ValueIdx.ix2 (0 : Fin 1) (l 0))) i := by
  refine (pay_apply _ _ _ j).trans ?_
  obtain ⟨e0, e1, e2, e3, e4, e5, -, -⟩ := idx_facts t
  have hx : ∀ k : Fin 128, ((cfg0.win 0).blk t).view.emb (ix2 (j 0) k) = ix2 (i 0) k := fun k => funext fun a => Fin.ext (by
    match a with
    | ⟨0, _⟩ => show win0_0.index t (0 : Fin 2) * 800 + 1 * (j 0).val = (i 0).val; omega
    | ⟨1, _⟩ => show win0_0.index t (1 : Fin 2) * 128 + 1 * k.val = k.val; omega)
  have hw : ∀ k : Fin 128, ((cfg0.win 1).blk t).view.emb (ix2 k (j 1)) = ix2 k (i 1) := fun k => funext fun a => Fin.ext (by
    match a with
    | ⟨0, _⟩ => show win0_1.index t (0 : Fin 2) * 128 + 1 * k.val = k.val; omega
    | ⟨1, _⟩ => show win0_1.index t (1 : Fin 2) * 32 + 1 * (j 1).val = (i 1).val; omega)
  have hb : ((cfg0.win 2).blk t).view.emb (ix2 (0 : Fin 1) (j 1)) = ix2 (0 : Fin 1) (i 1) := funext fun a => Fin.ext (by
    match a with
    | ⟨0, _⟩ => show win0_2.index t (0 : Fin 2) * 1 + 1 * 0 = 0; omega
    | ⟨1, _⟩ => show win0_2.index t (1 : Fin 2) * 32 + 1 * (j 1).val = (i 1).val; omega)
  exact congrArg₂ (· + ·)
    (Finset.sum_congr rfl fun k _ => congrArg₂ (· * ·) (congrArg X (hx k)) (congrArg W (hw k)))
    (congrArg B hb)

variable (V : (c : Dev nD) → (b : Ref sig .tc) → Buf (Elt Ideal) ((c : Thread nD τ).loc b))

/-- What point t writes back is block t of the projected table, computed from the three inputs as the region finds them. -/
theorem flushed_eq (c : Dev nD) (t : Fin cfg0.N) :
    (dat0 (F := Ideal) V c).flushed 3 t = ((cfg0.win 3).blk t).view.read (Elt Ideal)
      (Cert.Spec.affineU (V c main_arg0) (V c main_arg4) (fun j => V c main_v0 (ValueIdx.ix2 (0 : Fin 1) (j 0)))) := by
  show (cfg0.win 3).cut (grid0.coords t) ((dat0 (F := Ideal) V c).after 3 t) = _
  rw [after0_3]
  unfold out0_3
  rw [View.canon_unit_zero origin]
  simp only [View.ld_unit_zero (S := S800x128) origin, View.ld_unit_zero (S := S128x32) origin, View.ld_unit_zero (S := S1x32) origin]
  obtain ⟨-, -, -, -, -, -, e6, e7⟩ := idx_facts t
  funext j
  exact block_eq (V c main_arg0) (V c main_arg4) (V c main_v0) t j (((cfg0.win 3).blk t).view.emb j)
    (by show win0_3.index t (0 : Fin 2) * 800 + 1 * (j 0).val = t.val * 800 + (j 0).val; omega)
    (by show win0_3.index t (1 : Fin 2) * 32 + 1 * (j 1).val = (j 1).val; omega)

/-- An entry of the table is in point t's block iff each coordinate is in the block's range on its axis. -/
theorem mem_blk (t : Fin cfg0.N) (i : S100000x32.Idx) :
    i ∈ ((cfg0.win 3).blk t).view.set ↔ ∀ a : Fin 2, win0_3.index t a * S800x32.size a ≤ (i a).val ∧ (i a).val < win0_3.index t a * S800x32.size a + S800x32.size a := by
  show i ∈ ((View.whole main_v1).slice (win0_3.rect t)).set ↔ _
  rw [View.set_slice_whole, Rect.mem_set_unit]
  exact Iff.rfl

/-- Every entry is written back by some point: row r by point r / 800. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  refine ⟨⟨(i 0).val / 800, by show (i 0).val / 800 < 125; omega⟩, flush0_3 _, ?_⟩
  rw [mem_blk]
  obtain ⟨-, -, -, -, -, -, e6, e7⟩ := idx_facts ⟨(i 0).val / 800, by show (i 0).val / 800 < 125; omega⟩
  intro a
  match a with
  | ⟨0, _⟩ => show win0_3.index _ (0 : Fin 2) * 800 ≤ (i 0).val ∧ (i 0).val < win0_3.index _ (0 : Fin 2) * 800 + 800; rw [e6]; show (i 0).val / 800 * 800 ≤ (i 0).val ∧ (i 0).val < (i 0).val / 800 * 800 + 800; omega
  | ⟨1, _⟩ => show win0_3.index _ (1 : Fin 2) * 32 ≤ (i 1).val ∧ (i 1).val < win0_3.index _ (1 : Fin 2) * 32 + 32; rw [e7]; omega

/-- THE TABLE after the region: the rows of the feature input projected by the weight matrix, plus the bias row,
    all three as the region found them. -/
theorem final (c : Dev nD) : (dat0 (F := Ideal) V c).arrAt 3 cfg0.N
      = Cert.Spec.affineU (V c main_arg0) (V c main_arg4) (fun j => V c main_v0 (ValueIdx.ix2 (0 : Fin 1) (j 0))) :=
  (dat0 (F := Ideal) V c).arrAt_eq_of_cover 3 _ (fun t _ => flushed_eq V c t) (cover)

end Cert.KernelIdeal.Region0

end
-- ==== Proof.Region1.lean ====
/-
  The second projection region, as one statement about whole arrays: when the region is left, its output table
  holds, entry by entry, the rows of its feature input times the weight matrix plus the bias row, all three as the
  region found them:

      out (r, q) = (∑ k < 128, x (r, k) · w (k, q)) + b (0, q).

  The region walks the 40000 rows in 50 blocks of 800 rows. At block t the row window sits on rows
  800·t … 800·t + 799 of x (all 128 columns), the weight window on the whole 128 × 32 matrix, the bias window on
  the whole 1 × 32 row, and the output window on rows 800·t … 800·t + 799 of the table (all 32 columns). The
  body multiplies the row block by the matrix into a zero accumulator — on the extended reals the two narrowing
  casts are the identity and the product is the exact sum over the 128 features — and adds the bias row spread over
  the 800 rows. So what block t writes back is the restriction of the projected table to those rows; the blocks
  tile the table (row r lies in block r / 800).
-/
import proofs.«105421_j10754598109945_1_alg».proof.Proof.Gen.KernelIdeal.Frame
import proofs.«105421_j10754598109945_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-- The offsets of a whole-block access: zero on both axes. -/
theorem origin : (![0, 0] : Fin 2 → Nat) = fun _ => 0 := funext fun a => by fin_cases a <;> rfl

/-- The product's operand indices, axis by axis: at output entry i and contraction index q the left operand is
    read at (i 0, q) and the right operand at (q, i 1). -/
theorem lhs_row (i : S800x32.Idx) (q : dot_S800x128_S128x32_S800x32_1_0_0_1_n_n.contr.Idx) :
    (dot_S800x128_S128x32_S800x32_1_0_0_1_n_n.lhsIdx i q 0).val = (i 0).val := by
  unfold DotDims.lhsIdx
  rw [dif_neg (show ¬(0 : Fin S800x128.rank) ∈ dot_S800x128_S128x32_S800x32_1_0_0_1_n_n.lhsBatch by decide), dif_pos (show (0 : Fin S800x128.rank) ∈ dot_S800x128_S128x32_S800x32_1_0_0_1_n_n.lhsNonContracting by decide)]
  rfl
theorem lhs_contr (i : S800x32.Idx) (q : dot_S800x128_S128x32_S800x32_1_0_0_1_n_n.contr.Idx) :
    (dot_S800x128_S128x32_S800x32_1_0_0_1_n_n.lhsIdx i q 1).val = (q ⟨0, by decide⟩).val :=
  dot_S800x128_S128x32_S800x32_1_0_0_1_n_n.lhsIdx_val_of_single rfl i q
theorem rhs_contr (i : S800x32.Idx) (q : dot_S800x128_S128x32_S800x32_1_0_0_1_n_n.contr.Idx) :
    (dot_S800x128_S128x32_S800x32_1_0_0_1_n_n.rhsIdx i q 0).val = (q ⟨0, by decide⟩).val :=
  dot_S800x128_S128x32_S800x32_1_0_0_1_n_n.rhsIdx_val_of_single rfl i q
theorem rhs_col (i : S800x32.Idx) (q : dot_S800x128_S128x32_S800x32_1_0_0_1_n_n.contr.Idx) :
    (dot_S800x128_S128x32_S800x32_1_0_0_1_n_n.rhsIdx i q 1).val = (i 1).val := by
  unfold DotDims.rhsIdx
  rw [dif_neg (show ¬(1 : Fin S128x32.rank) ∈ dot_S800x128_S128x32_S800x32_1_0_0_1_n_n.rhsBatch by decide), dif_pos (show (1 : Fin S128x32.rank) ∈ dot_S800x128_S128x32_S800x32_1_0_0_1_n_n.rhsNonContracting by decide)]
  rfl

/-- The product into the zero accumulator, entry (p, q): the inner product of row p with column q. -/
theorem dot_apply (a : FVec Ideal S800x128 .bf16) (b : FVec Ideal S128x32 .bf16) (j : S800x32.Idx) :
    matmul (F := Ideal) dot_S800x128_S128x32_S800x32_1_0_0_1_n_n none a b (constant (F := Ideal) S800x32 .f32 0x00000000#32) j
      = ∑ k : Fin 128, a (ix2 (j 0) k) * b (ix2 k (j 1)) := by
  refine (Ideal.matmul_constant_zero_apply dot_S800x128_S128x32_S800x32_1_0_0_1_n_n none a b j).trans ?_
  rw [← Equiv.sum_comp (ValueIdx.contrEquiv1 dot_S800x128_S128x32_S800x32_1_0_0_1_n_n 128 rfl rfl).symm]
  refine Finset.sum_congr rfl fun k _ => ?_
  have hk := ValueIdx.contrEquiv1_symm_val dot_S800x128_S128x32_S800x32_1_0_0_1_n_n 128 rfl rfl k
  have el : dot_S800x128_S128x32_S800x32_1_0_0_1_n_n.lhsIdx j ((ValueIdx.contrEquiv1 dot_S800x128_S128x32_S800x32_1_0_0_1_n_n 128 rfl rfl).symm k) = ix2 (j 0) k := funext fun a => Fin.ext (by
    match a with
    | ⟨0, _⟩ => exact lhs_row _ _
    | ⟨1, _⟩ => exact (lhs_contr _ _).trans hk)
  have er : dot_S800x128_S128x32_S800x32_1_0_0_1_n_n.rhsIdx j ((ValueIdx.contrEquiv1 dot_S800x128_S128x32_S800x32_1_0_0_1_n_n 128 rfl rfl).symm k) = ix2 k (j 1) := funext fun a => Fin.ext (by
    match a with
    | ⟨0, _⟩ => exact (rhs_contr _ _).trans hk
    | ⟨1, _⟩ => exact rhs_col _ _)
  rw [el, er]
  rfl

/-- The bias row spread over the 800 rows, entry (p, q): the row's entry q. -/
theorem bias_apply (x2 : Vec Ideal S1x32 .f32) (j : S800x32.Idx) :
    broadcastTo S800x32 x2 broadcasts_S1x32_S800x32 j = x2 (ix2 (0 : Fin 1) (j 1)) := by
  refine broadcastTo_apply x2 broadcasts_S1x32_S800x32 j (ix2 (0 : Fin 1) (j 1)) (fun a => ?_)
  match a with
  | ⟨0, _⟩ => rfl
  | ⟨1, _⟩ => rfl

/-- The body's arithmetic at entry (p, q): the inner product of row p of the loaded rows with column q of the
    weights, plus the bias of column q. -/
theorem pay_apply (x0 : Vec Ideal S800x128 .f32) (x1 : Vec Ideal S128x32 .f32) (x2 : Vec Ideal S1x32 .f32) (j : S800x32.Idx) :
    k1_pay1 (F := Ideal) x0 x1 x2 j = (∑ k : Fin 128, x0 (ix2 (j 0) k) * x1 (ix2 k (j 1))) + x2 (ix2 (0 : Fin 1) (j 1)) := by
  unfold k1_pay1
  show matmul (F := Ideal) dot_S800x128_S128x32_S800x32_1_0_0_1_n_n none (truncf .bf16 x0 bitsLt_bf16_f32) (truncf .bf16 x1 bitsLt_bf16_f32) (constant (F := Ideal) S800x32 .f32 0x00000000#32) j
      + broadcastTo S800x32 (shapeCast S1x32 x2 shapeCasts_S1x32_S1x32) broadcasts_S1x32_S800x32 j = _
  rw [shapeCast_self, bias_apply, dot_apply]
  rfl

/-- Where the windows sit: at point t the row window and the output window sit on block (t, 0); the weight matrix
    and the bias row are one block each, (0, 0), at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of what point t computes. From the three windows' blocks of tables X, W and the row B, the body's
    entry (p, q) is entry (800·t + p, q) of the projection of X by W and B: the row window's block holds rows
    800·t … 800·t + 799 of X, and the other two windows hold all of W and all of B. -/
theorem block_eq (X : Vec Ideal S40000x128 .f32) (W : Vec Ideal S128x32 .f32) (B : Vec Ideal S1x32 .f32)
    (t : Fin cfg1.N) (j : S800x32.Idx) (i : S40000x32.Idx)
    (hi0 : (i 0).val = t.val * 800 + (j 0).val) (hi1 : (i 1).val = (j 1).val) :
    k1_pay1 (F := Ideal) (((cfg1.win 0).blk t).view.read (Elt Ideal) X) (((cfg1.win 1).blk t).view.read (Elt Ideal) W)
        (((cfg1.win 2).blk t).view.read (Elt Ideal) B) j
      = Cert.Spec.affineI X W (fun l => B (ValueIdx.ix2 (0 : Fin 1) (l 0))) i := by
  refine (pay_apply _ _ _ j).trans ?_
  obtain ⟨e0, e1, e2, e3, e4, e5, -, -⟩ := idx_facts t
  have hx : ∀ k : Fin 128, ((cfg1.win 0).blk t).view.emb (ix2 (j 0) k) = ix2 (i 0) k := fun k => funext fun a => Fin.ext (by
    match a with
    | ⟨0, _⟩ => show win1_0.index t (0 : Fin 2) * 800 + 1 * (j 0).val = (i 0).val; omega
    | ⟨1, _⟩ => show win1_0.index t (1 : Fin 2) * 128 + 1 * k.val = k.val; omega)
  have hw : ∀ k : Fin 128, ((cfg1.win 1).blk t).view.emb (ix2 k (j 1)) = ix2 k (i 1) := fun k => funext fun a => Fin.ext (by
    match a with
    | ⟨0, _⟩ => show win1_1.index t (0 : Fin 2) * 128 + 1 * k.val = k.val; omega
    | ⟨1, _⟩ => show win1_1.index t (1 : Fin 2) * 32 + 1 * (j 1).val = (i 1).val; omega)
  have hb : ((cfg1.win 2).blk t).view.emb (ix2 (0 : Fin 1) (j 1)) = ix2 (0 : Fin 1) (i 1) := funext fun a => Fin.ext (by
    match a with
    | ⟨0, _⟩ => show win1_2.index t (0 : Fin 2) * 1 + 1 * 0 = 0; omega
    | ⟨1, _⟩ => show win1_2.index t (1 : Fin 2) * 32 + 1 * (j 1).val = (i 1).val; omega)
  exact congrArg₂ (· + ·)
    (Finset.sum_congr rfl fun k _ => congrArg₂ (· * ·) (congrArg X (hx k)) (congrArg W (hw k)))
    (congrArg B hb)

variable (V : (c : Dev nD) → (b : Ref sig .tc) → Buf (Elt Ideal) ((c : Thread nD τ).loc b))

/-- What point t writes back is block t of the projected table, computed from the three inputs as the region finds them. -/
theorem flushed_eq (c : Dev nD) (t : Fin cfg1.N) :
    (dat1 (F := Ideal) V c).flushed 3 t = ((cfg1.win 3).blk t).view.read (Elt Ideal)
      (Cert.Spec.affineI (V c main_arg1) (V c main_arg6) (fun j => V c main_v2 (ValueIdx.ix2 (0 : Fin 1) (j 0)))) := by
  show (cfg1.win 3).cut (grid1.coords t) ((dat1 (F := Ideal) V c).after 3 t) = _
  rw [after1_3]
  unfold out1_3
  rw [View.canon_unit_zero origin]
  simp only [View.ld_unit_zero (S := S800x128) origin, View.ld_unit_zero (S := S128x32) origin, View.ld_unit_zero (S := S1x32) origin]
  obtain ⟨-, -, -, -, -, -, e6, e7⟩ := idx_facts t
  funext j
  exact block_eq (V c main_arg1) (V c main_arg6) (V c main_v2) t j (((cfg1.win 3).blk t).view.emb j)
    (by show win1_3.index t (0 : Fin 2) * 800 + 1 * (j 0).val = t.val * 800 + (j 0).val; omega)
    (by show win1_3.index t (1 : Fin 2) * 32 + 1 * (j 1).val = (j 1).val; omega)

/-- An entry of the table is in point t's block iff each coordinate is in the block's range on its axis. -/
theorem mem_blk (t : Fin cfg1.N) (i : S40000x32.Idx) :
    i ∈ ((cfg1.win 3).blk t).view.set ↔ ∀ a : Fin 2, win1_3.index t a * S800x32.size a ≤ (i a).val ∧ (i a).val < win1_3.index t a * S800x32.size a + S800x32.size a := by
  show i ∈ ((View.whole main_v3).slice (win1_3.rect t)).set ↔ _
  rw [View.set_slice_whole, Rect.mem_set_unit]
  exact Iff.rfl

/-- Every entry is written back by some point: row r by point r / 800. -/
theorem cover (i : S40000x32.Idx) :
    ∃ t : Fin cfg1.N, (cfg1.win 3).flush t = true ∧ i ∈ ((cfg1.win 3).blk t).view.set := by
  have hi0 : (i 0).val < 40000 := (i 0).isLt
  have hi1 : (i 1).val < 32 := (i 1).isLt
  refine ⟨⟨(i 0).val / 800, by show (i 0).val / 800 < 50; omega⟩, flush1_3 _, ?_⟩
  rw [mem_blk]
  obtain ⟨-, -, -, -, -, -, e6, e7⟩ := idx_facts ⟨(i 0).val / 800, by show (i 0).val / 800 < 50; omega⟩
  intro a
  match a with
  | ⟨0, _⟩ => show win1_3.index _ (0 : Fin 2) * 800 ≤ (i 0).val ∧ (i 0).val < win1_3.index _ (0 : Fin 2) * 800 + 800; rw [e6]; show (i 0).val / 800 * 800 ≤ (i 0).val ∧ (i 0).val < (i 0).val / 800 * 800 + 800; omega
  | ⟨1, _⟩ => show win1_3.index _ (1 : Fin 2) * 32 ≤ (i 1).val ∧ (i 1).val < win1_3.index _ (1 : Fin 2) * 32 + 32; rw [e7]; omega

/-- THE TABLE after the region: the rows of the feature input projected by the weight matrix, plus the bias row,
    all three as the region found them. -/
theorem final (c : Dev nD) : (dat1 (F := Ideal) V c).arrAt 3 cfg1.N
      = Cert.Spec.affineI (V c main_arg1) (V c main_arg6) (fun j => V c main_v2 (ValueIdx.ix2 (0 : Fin 1) (j 0))) :=
  (dat1 (F := Ideal) V c).arrAt_eq_of_cover 3 _ (fun t _ => flushed_eq V c t) (cover)

end Cert.KernelIdeal.Region1

end
-- ==== Proof.FoldTop.lean ====
/-
  The contents the second projection region leaves, in terms of the launch memory.

  The first projection region finds the user features and the user weights as launched and the user bias cast from
  32 entries to one row of 32; by its whole-array statement it leaves the projected user table, and nothing later
  up to the second projection region's exit writes that table. The second projection region does the same with
  the item features, weights and bias. The two edge arrays are written by nothing and read by no region before
  that point: they stand as launched.
-/
import proofs.«105421_j10754598109945_1_alg».proof.Proof.Gen.KernelIdeal.Frame
import proofs.«105421_j10754598109945_1_alg».proof.Proof.Spec
import proofs.«105421_j10754598109945_1_alg».proof.Proof.Region0
import proofs.«105421_j10754598109945_1_alg».proof.Proof.Region1
import Idealize.ShloMosaic.Lib.StableHlo.Run
import Idealize.ShloMosaic.Lib.Pipeline.Value
import Idealize.ShloMosaic.Lib.ValueIdx

set_option maxRecDepth 16384

noncomputable section

namespace Cert.KernelIdeal.Top

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A row of 32 entries cast to a 1 × 32 table and read along its only row is the row itself. -/
theorem row_of_cast (x : (⟨S32, .f32⟩ : BufTy).Contents (Elt Ideal)) (h : S32.ShapeCasts S1x32) :
    (fun j : (⟨1, ![32]⟩ : Shape).Idx => shapeCast S1x32 x h (ValueIdx.ix2 (0 : Fin 1) (j 0))) = x := by
  funext j
  refine (shapeCast_addUnit_apply ![32] x h _).trans (congrArg x ?_)
  funext a
  match a with
  | ⟨0, _⟩ => rfl

/-! ## What the first projection region finds: the launch memory, the bias cast to a row -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_v0 (c : Dev nD) : W1 m ρ c (Proc.devRef .tc main_v0) = shapeCast S1x32 (m ((c : Thread nD τ).loc main_arg5)) shapeCasts_S32_S1x32 := by
  show StableHlo.after hostOps0 (W0 m ρ c) (Proc.devRef .tc main_v0) = _
  after_results_simp <;> rfl

/-- The first projection region leaves the projected user table. -/
theorem W2_v1 (c : Dev nD) : W2 m ρ c (Proc.devRef .tc main_v1) = Cert.Spec.affineU (m ((c : Thread nD τ).loc main_arg0)) (m ((c : Thread nD τ).loc main_arg4)) (m ((c : Thread nD τ).loc main_arg5)) := by
  refine (W2_arr m ρ c 3).trans ((Region0.final (V1 m ρ) c).trans ?_)
  show Cert.Spec.affineU (W1 m ρ c (Proc.devRef .tc main_arg0)) (W1 m ρ c (Proc.devRef .tc main_arg4)) (fun j => W1 m ρ c (Proc.devRef .tc main_v0) (ValueIdx.ix2 (0 : Fin 1) (j 0))) = _
  rw [W1_arg0, W1_arg4, W1_v0, row_of_cast]

/-! ## What the second projection region finds -/

theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact (W2_of_ne m ρ c main_arg1 (by decide)).trans (W1_arg1 m ρ c)
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact (W2_of_ne m ρ c main_arg2 (by decide)).trans (W1_arg2 m ρ c)
theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact (W2_of_ne m ρ c main_arg3 (by decide)).trans (W1_arg3 m ρ c)
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact (W2_of_ne m ρ c main_arg6 (by decide)).trans (W1_arg6 m ρ c)
theorem W3_v2 (c : Dev nD) : W3 m ρ c (Proc.devRef .tc main_v2) = shapeCast S1x32 (m ((c : Thread nD τ).loc main_arg7)) shapeCasts_S32_S1x32 := by
  show StableHlo.after hostOps1 (W2 m ρ c) (Proc.devRef .tc main_v2) = _
  after_results_simp
  rw [W2_of_ne m ρ c main_arg7 (by decide), W1_arg7]
  rfl
theorem W3_v1 (c : Dev nD) : W3 m ρ c (Proc.devRef .tc main_v1) = W2 m ρ c (Proc.devRef .tc main_v1) := by
  show StableHlo.after hostOps1 (W2 m ρ c) (Proc.devRef .tc main_v1) = _
  after_results_simp <;> rfl

/-! ## What it leaves -/

/-- The projected user table is still there. -/
theorem W4_v1 (c : Dev nD) : W4 m ρ c (Proc.devRef .tc main_v1) = Cert.Spec.affineU (m ((c : Thread nD τ).loc main_arg0)) (m ((c : Thread nD τ).loc main_arg4)) (m ((c : Thread nD τ).loc main_arg5)) :=
  (W4_of_ne m ρ c main_v1 (by decide)).trans ((W3_v1 m ρ c).trans (W2_v1 m ρ c))

/-- The second projection region leaves the projected item table. -/
theorem W4_v3 (c : Dev nD) : W4 m ρ c (Proc.devRef .tc main_v3) = Cert.Spec.affineI (m ((c : Thread nD τ).loc main_arg1)) (m ((c : Thread nD τ).loc main_arg6)) (m ((c : Thread nD τ).loc main_arg7)) := by
  refine (W4_arr m ρ c 3).trans ((Region1.final (V3 m ρ) c).trans ?_)
  show Cert.Spec.affineI (W3 m ρ c (Proc.devRef .tc main_arg1)) (W3 m ρ c (Proc.devRef .tc main_arg6)) (fun j => W3 m ρ c (Proc.devRef .tc main_v2) (ValueIdx.ix2 (0 : Fin 1) (j 0))) = _
  rw [W3_arg1, W3_arg6, W3_v2, row_of_cast]

/-- The two edge arrays stand as launched. -/
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)

end Cert.KernelIdeal.Top

end
-- ==== Proof.RMid.lean ====
/-
  One round of the edge propagation on the reference's side, as a function of the node table alone.

  Both rounds of the reference are the same three operations applied to a node table z: gather the rows of z at the
  (wrapped) source ids, scale each gathered row by its edge weight, and add the rows into a zero table at the target
  ids. The ids and the weights depend only on the two edge arrays, so a round is `step x2 x3 z`; the first round is
  applied to the projected table and the second to the first round's result.
-/
import proofs.«105421_j10754598109945_1_alg».proof.Proof.RefRead

noncomputable section

namespace Cert.ReferenceIdeal.Mid

open Cert.ReferenceIdeal Cert.ReferenceIdeal.Gen Cert.ReferenceIdeal.Read Idealize.ShloMosaic

variable {F : FTy → Type} [FloatOps F]

/-- One round: rows of `z` gathered at the source ids, each times its edge weight, summed into the target ids. -/
def step (x2 x3 : (⟨S1200000, .i32⟩ : BufTy).Contents (Elt F)) (z : (⟨S140000x32, .f32⟩ : BufTy).Contents (Elt F)) :
    (⟨S140000x32, .f32⟩ : BufTy).Contents (Elt F) :=
  Host.scatterAdd scatter_S140000x32_S2400000x1_S2400000x32_1_0_0_1 (val_main_v50 (F := F)) (val_main_v51 (F := F) x2 x3)
    (mulf (Host.gather gather_S140000x32_S2400000x1_S2400000x32_1_0_n_n_0_1_132 z (val_main_v45 (F := F) x2 x3))
      (val_main_v48 (F := F) x2 x3))

/-- The first round is a step from the projected table. -/
theorem round1 (x0 : (⟨S100000x128, .f32⟩ : BufTy).Contents (Elt F)) (x1 : (⟨S40000x128, .f32⟩ : BufTy).Contents (Elt F)) (x2 x3 : (⟨S1200000, .i32⟩ : BufTy).Contents (Elt F)) (x4 : (⟨S128x32, .f32⟩ : BufTy).Contents (Elt F)) (x5 : (⟨S32, .f32⟩ : BufTy).Contents (Elt F)) (x6 : (⟨S128x32, .f32⟩ : BufTy).Contents (Elt F)) (x7 : (⟨S32, .f32⟩ : BufTy).Contents (Elt F)) :
    val_main_v52 (F := F) x0 x1 x2 x3 x4 x5 x6 x7 = step x2 x3 (val_main_v8 (F := F) x0 x1 x4 x5 x6 x7) := rfl

/-- The second round is a step from the first round's result: its ids and weights are the first round's, printed again. -/
theorem round2 (x0 : (⟨S100000x128, .f32⟩ : BufTy).Contents (Elt F)) (x1 : (⟨S40000x128, .f32⟩ : BufTy).Contents (Elt F)) (x2 x3 : (⟨S1200000, .i32⟩ : BufTy).Contents (Elt F)) (x4 : (⟨S128x32, .f32⟩ : BufTy).Contents (Elt F)) (x5 : (⟨S32, .f32⟩ : BufTy).Contents (Elt F)) (x6 : (⟨S128x32, .f32⟩ : BufTy).Contents (Elt F)) (x7 : (⟨S32, .f32⟩ : BufTy).Contents (Elt F)) :
    val_main_v66 (F := F) x0 x1 x2 x3 x4 x5 x6 x7 = step x2 x3 (val_main_v52 (F := F) x0 x1 x2 x3 x4 x5 x6 x7) := rfl

end Cert.ReferenceIdeal.Mid

end
-- ==== Proof.RefTerm.lean ====
/-
  The reference's two results as a term over the shared pieces.

  The reference projects the user and the item features (an inner product over the 128 features plus a bias),
  stacks the two projected tables into one node table z of 140000 rows, applies the edge propagation twice,
  and returns the two row ranges of ((z + step z) + step (step z)) / 3.

  * A projection, read index by index, is the inner product of a feature row with a weight column plus the
    column's bias: the index-by-index formulas `Cert.Spec.affineU` and `Cert.Spec.affineI`.
  * The divisor is the constant 3 at every entry, and on the extended reals x / 3 = x * (1/3) for every x,
    the infinities included: the division is `Cert.Spec.third`.
  * The two rounds are `step` applied to z and to `step z`.
-/
import proofs.«105421_j10754598109945_1_alg».proof.Proof.RMid
import proofs.«105421_j10754598109945_1_alg».proof.Proof.Spec
import Idealize.ShloMosaic.PureOps.Ideal.Laws
import Idealize.ShloMosaic.Lib.ValueIdx

noncomputable section

open scoped BigOperators

namespace Cert.ReferenceIdeal.RefTerm

open Cert.ReferenceIdeal Cert.ReferenceIdeal.Gen Cert.ReferenceIdeal.Read Cert.ReferenceIdeal.Mid Idealize.ShloMosaic

/-- The projected node table: the projected user rows stacked on the projected item rows. -/
def table (x0 : (⟨S100000x128, .f32⟩ : BufTy).Contents (Elt Ideal)) (x1 : (⟨S40000x128, .f32⟩ : BufTy).Contents (Elt Ideal)) (x4 : (⟨S128x32, .f32⟩ : BufTy).Contents (Elt Ideal)) (x5 : (⟨S32, .f32⟩ : BufTy).Contents (Elt Ideal)) (x6 : (⟨S128x32, .f32⟩ : BufTy).Contents (Elt Ideal)) (x7 : (⟨S32, .f32⟩ : BufTy).Contents (Elt Ideal)) : (⟨S140000x32, .f32⟩ : BufTy).Contents (Elt Ideal) :=
  concatenate S140000x32 0 [⟨S100000x32, Cert.Spec.affineU x0 x4 x5⟩, ⟨S40000x32, Cert.Spec.affineI x1 x6 x7⟩] concatenates_S100000x32_S40000x32_S140000x32_d0

/-- The mean of the three layers: the table, one round from it and two rounds from it, summed, times one third. -/
def mean3 (x2 x3 : (⟨S1200000, .i32⟩ : BufTy).Contents (Elt Ideal)) (z : (⟨S140000x32, .f32⟩ : BufTy).Contents (Elt Ideal)) : (⟨S140000x32, .f32⟩ : BufTy).Contents (Elt Ideal) :=
  Cert.Spec.third (addf (addf z (step x2 x3 z)) (step x2 x3 (step x2 x3 z)))

/-- The user projection, entry by entry: row `i 0` of the features against column `i 1` of the weights, plus the bias of column `i 1`. -/
theorem proj_user (x0 : (⟨S100000x128, .f32⟩ : BufTy).Contents (Elt Ideal)) (x4 : (⟨S128x32, .f32⟩ : BufTy).Contents (Elt Ideal)) (x5 : (⟨S32, .f32⟩ : BufTy).Contents (Elt Ideal)) :
    val_main_v3 (F := Ideal) x0 x4 x5 = Cert.Spec.affineU x0 x4 x5 := by
  funext i
  have el : ∀ k : Fin 128, lidx_main_v0 i k = ValueIdx.ix2 (i 0) k := fun k =>
    funext fun a => Fin.ext (by match a with | ⟨0, _⟩ => rfl | ⟨1, _⟩ => rfl)
  have er : ∀ k : Fin 128, ridx_main_v0 i k = ValueIdx.ix2 k (i 1) := fun k =>
    funext fun a => Fin.ext (by match a with | ⟨0, _⟩ => rfl | ⟨1, _⟩ => rfl)
  have eb : idx_main_v1 (idx_main_v2 i) = ValueIdx.ix1 (i 1) :=
    funext fun a => Fin.ext (by match a with | ⟨0, _⟩ => rfl)
  unfold Cert.Spec.affineU
  rw [val_main_v3_apply, val_main_v0_apply, val_main_v2_apply, val_main_v1_apply, Ideal.addf_def, eb]
  congr 1
  exact Finset.sum_congr rfl fun k _ => congrArg₂ (· * ·) (congrArg x0 (el k)) (congrArg x4 (er k))

/-- The item projection, entry by entry, the same reading over the 40000 item rows. -/
theorem proj_item (x1 : (⟨S40000x128, .f32⟩ : BufTy).Contents (Elt Ideal)) (x6 : (⟨S128x32, .f32⟩ : BufTy).Contents (Elt Ideal)) (x7 : (⟨S32, .f32⟩ : BufTy).Contents (Elt Ideal)) :
    val_main_v7 (F := Ideal) x1 x6 x7 = Cert.Spec.affineI x1 x6 x7 := by
  funext i
  have el : ∀ k : Fin 128, lidx_main_v4 i k = ValueIdx.ix2 (i 0) k := fun k =>
    funext fun a => Fin.ext (by match a with | ⟨0, _⟩ => rfl | ⟨1, _⟩ => rfl)
  have er : ∀ k : Fin 128, ridx_main_v4 i k = ValueIdx.ix2 k (i 1) := fun k =>
    funext fun a => Fin.ext (by match a with | ⟨0, _⟩ => rfl | ⟨1, _⟩ => rfl)
  have eb : idx_main_v5 (idx_main_v6 i) = ValueIdx.ix1 (i 1) :=
    funext fun a => Fin.ext (by match a with | ⟨0, _⟩ => rfl)
  unfold Cert.Spec.affineI
  rw [val_main_v7_apply, val_main_v4_apply, val_main_v6_apply, val_main_v5_apply, Ideal.addf_def, eb]
  congr 1
  exact Finset.sum_congr rfl fun k _ => congrArg₂ (· * ·) (congrArg x1 (el k)) (congrArg x6 (er k))

/-- The pattern 0x40400000 is the real number 3. -/
theorem ofBits_three : Ideal.ofBits .f32 0x40400000#32 = ((3 : ℝ) : EReal) := by
  simp [Ideal.ofBits, Ideal.ieee, -EReal.coe_mul]; norm_num

/-- Dividing every entry by the constant 3 is taking one third of every entry, at the infinities too. -/
theorem third_of (a : (⟨S140000x32, .f32⟩ : BufTy).Contents (Elt Ideal)) :
    Host.divf (F := Ideal) (s := S140000x32) (φ := .f32) a (val_main_v68 (F := Ideal)) = Cert.Spec.third a := by
  funext i
  show FloatOps.hostDivf (F := Ideal) (φ := .f32) (a i) (val_main_v68 (F := Ideal) i) = a i * ((1 / 3 : ℝ) : EReal)
  rw [val_main_v68_apply, val_main_cst_15_apply, Ideal.hostDivf_def, Ideal.ofBits_def, ofBits_three]
  exact Ideal.div_coe (by norm_num : (3 : ℝ) ≠ 0) (a i)

/-- The node table the reference builds is the stacked index-by-index projections. -/
theorem table_eq (x0 : (⟨S100000x128, .f32⟩ : BufTy).Contents (Elt Ideal)) (x1 : (⟨S40000x128, .f32⟩ : BufTy).Contents (Elt Ideal)) (x4 : (⟨S128x32, .f32⟩ : BufTy).Contents (Elt Ideal)) (x5 : (⟨S32, .f32⟩ : BufTy).Contents (Elt Ideal)) (x6 : (⟨S128x32, .f32⟩ : BufTy).Contents (Elt Ideal)) (x7 : (⟨S32, .f32⟩ : BufTy).Contents (Elt Ideal)) :
    val_main_v8 (F := Ideal) x0 x1 x4 x5 x6 x7 = table x0 x1 x4 x5 x6 x7 := by
  unfold val_main_v8 table
  rw [proj_user, proj_item]

/-- The quotient the reference slices its two results from is the mean of the three layers of the node table. -/
theorem quot_eq (x0 : (⟨S100000x128, .f32⟩ : BufTy).Contents (Elt Ideal)) (x1 : (⟨S40000x128, .f32⟩ : BufTy).Contents (Elt Ideal)) (x2 x3 : (⟨S1200000, .i32⟩ : BufTy).Contents (Elt Ideal)) (x4 : (⟨S128x32, .f32⟩ : BufTy).Contents (Elt Ideal)) (x5 : (⟨S32, .f32⟩ : BufTy).Contents (Elt Ideal)) (x6 : (⟨S128x32, .f32⟩ : BufTy).Contents (Elt Ideal)) (x7 : (⟨S32, .f32⟩ : BufTy).Contents (Elt Ideal)) :
    val_main_v69 (F := Ideal) x0 x1 x2 x3 x4 x5 x6 x7 = mean3 x2 x3 (table x0 x1 x4 x5 x6 x7) := by
  unfold val_main_v69 val_main_v67 val_main_v53
  rw [round2, round1, third_of, table_eq]
  rfl

/-- The first result: the user rows of the mean. -/
theorem out0 (x0 : (⟨S100000x128, .f32⟩ : BufTy).Contents (Elt Ideal)) (x1 : (⟨S40000x128, .f32⟩ : BufTy).Contents (Elt Ideal)) (x2 x3 : (⟨S1200000, .i32⟩ : BufTy).Contents (Elt Ideal)) (x4 : (⟨S128x32, .f32⟩ : BufTy).Contents (Elt Ideal)) (x5 : (⟨S32, .f32⟩ : BufTy).Contents (Elt Ideal)) (x6 : (⟨S128x32, .f32⟩ : BufTy).Contents (Elt Ideal)) (x7 : (⟨S32, .f32⟩ : BufTy).Contents (Elt Ideal)) :
    val_main_v70 (F := Ideal) x0 x1 x2 x3 x4 x5 x6 x7 = extractStridedSlice S100000x32 ![0, 0] (mean3 x2 x3 (table x0 x1 x4 x5 x6 x7)) slices_S140000x32_S100000x32_0_0 := by
  unfold val_main_v70
  rw [quot_eq]

/-- The second result: the item rows of the mean. -/
theorem out1 (x0 : (⟨S100000x128, .f32⟩ : BufTy).Contents (Elt Ideal)) (x1 : (⟨S40000x128, .f32⟩ : BufTy).Contents (Elt Ideal)) (x2 x3 : (⟨S1200000, .i32⟩ : BufTy).Contents (Elt Ideal)) (x4 : (⟨S128x32, .f32⟩ : BufTy).Contents (Elt Ideal)) (x5 : (⟨S32, .f32⟩ : BufTy).Contents (Elt Ideal)) (x6 : (⟨S128x32, .f32⟩ : BufTy).Contents (Elt Ideal)) (x7 : (⟨S32, .f32⟩ : BufTy).Contents (Elt Ideal)) :
    val_main_v71 (F := Ideal) x0 x1 x2 x3 x4 x5 x6 x7 = extractStridedSlice S40000x32 ![100000, 0] (mean3 x2 x3 (table x0 x1 x4 x5 x6 x7)) slices_S140000x32_S40000x32_100000_0 := by
  unfold val_main_v71
  rw [quot_eq]

end Cert.ReferenceIdeal.RefTerm

end
-- ==== Proof.Bridge.lean ====
/-
  The two programs compute the same two tables.

  Both results are the two row ranges of one node table: a third of z + step z + step (step z), where z is the two
  projected tables joined and step is one round of the edge propagation. The kernel program's side of this is
  read off its run segment by segment; the reference's side off its run operation by operation. What is left
  here: that a round on the kernel's side, built from its own sources, targets and weights, is the reference's
  round of the same node table (the two are the same operations of the same two edge arrays), and that, the
  arguments agreeing, the two sides are then one term.
-/
import proofs.«105421_j10754598109945_1_alg».proof.Defs
import proofs.«105421_j10754598109945_1_alg».proof.Proof.KernelRun
import proofs.«105421_j10754598109945_1_alg».proof.Proof.Fold
import proofs.«105421_j10754598109945_1_alg».proof.Proof.FoldTop
import proofs.«105421_j10754598109945_1_alg».proof.Proof.RefTerm

set_option maxRecDepth 16384

noncomputable section

namespace Cert.Bridge

open Idealize.ShloMosaic Idealize.ShloMosaic.TcCoe Idealize.SL.Sem

section AnyFloats

variable {F : FTy → Type} [FloatOps F] [Named F]

/-- A round on the kernel's side — from its sources, targets and weights of the two edge arrays — is the
    reference's round of the same node table: both are the same gather, scaling and scatter-add, the ids wrapped
    the same way and the weights the same products of the same degree factors. -/
theorem step_eq (x2 x3 : (⟨Cert.KernelIdeal.S1200000, .i32⟩ : BufTy).Contents (Elt F)) (z : (⟨Cert.KernelIdeal.S140000x32, .f32⟩ : BufTy).Contents (Elt F)) :
    Cert.KernelIdeal.Mid.step (Cert.KernelIdeal.Mid.src x2 x3) (Cert.KernelIdeal.Mid.dst x2 x3) (Cert.KernelIdeal.Mid.weight (Cert.KernelIdeal.Mid.src x2 x3) (Cert.KernelIdeal.Mid.dst x2 x3)) z
      = Cert.ReferenceIdeal.Mid.step x2 x3 z := rfl

end AnyFloats

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The first results agree: the reference's is its term of its arguments, the kernel program's the fold's value
    of its arguments, and the arguments are the same arrays. -/
theorem users_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v70 m' c = Cert.KernelIdeal.Gen.W12 m ρ c (Proc.devRef .tc Cert.KernelIdeal.main_v65) := by
  obtain ⟨a0, a1, a2, a3, a4, a5, a6, a7⟩ := h
  rw [Cert.ReferenceIdeal.Read.val_main_v70_eq, Cert.ReferenceIdeal.RefTerm.out0, a0, a1, a2, a3, a4, a5, a6, a7, Cert.KernelIdeal.Fold.result_users]
  simp only [Cert.KernelIdeal.Fold.layers, Cert.KernelIdeal.Fold.tbl, Cert.KernelIdeal.Fold.es, Cert.KernelIdeal.Fold.ed, Cert.KernelIdeal.Fold.ew, step_eq]
  rw [Cert.KernelIdeal.Top.W4_v1, Cert.KernelIdeal.Top.W4_v3, Cert.KernelIdeal.Top.W4_arg2, Cert.KernelIdeal.Top.W4_arg3]
  unfold Cert.ReferenceIdeal.RefTerm.mean3 Cert.ReferenceIdeal.RefTerm.table
  rfl

/-- The second results agree, the same way. -/
theorem items_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v71 m' c = Cert.KernelIdeal.Gen.W12 m ρ c (Proc.devRef .tc Cert.KernelIdeal.main_v66) := by
  obtain ⟨a0, a1, a2, a3, a4, a5, a6, a7⟩ := h
  rw [Cert.ReferenceIdeal.Read.val_main_v71_eq, Cert.ReferenceIdeal.RefTerm.out1, a0, a1, a2, a3, a4, a5, a6, a7, Cert.KernelIdeal.Fold.result_items]
  simp only [Cert.KernelIdeal.Fold.layers, Cert.KernelIdeal.Fold.tbl, Cert.KernelIdeal.Fold.es, Cert.KernelIdeal.Fold.ed, Cert.KernelIdeal.Fold.ew, step_eq]
  rw [Cert.KernelIdeal.Top.W4_v1, Cert.KernelIdeal.Top.W4_v3, Cert.KernelIdeal.Top.W4_arg2, Cert.KernelIdeal.Top.W4_arg3]
  unfold Cert.ReferenceIdeal.RefTerm.mean3 Cert.ReferenceIdeal.RefTerm.table
  rfl

end Cert.Bridge

end
-- ==== Proof.lean ====
/-
  A LightGCN forward pass as a Pallas program against its jnp reference, equal over the extended reals.

  Both programs project the user and the item features to 32 hidden features (a matrix product plus a bias),
  join the two tables into one node table z of 140000 rows, propagate it twice along the 2400000 directed edges of
  the symmetrised bipartite graph (gather the source rows, scale by the degree-normalised edge weight, add into the
  target rows), and return the mean of the three layers, ((z + step z) + step (step z)) / 3, as its user rows and
  its item rows. The Pallas program does the projections, the two additions and the final scaling in five
  pallas_call regions and multiplies by the constant it names "inv_3"; the propagation itself is the same host
  code in both programs.

  Over the extended reals the two agree term by term: a matrix product into a zero accumulator is the exact sum
  of products the host's dot_general is (the narrowing casts are the identity there); an entrywise sum is an
  entrywise sum; and x / 3 = x · (1/3) for every extended real x, the infinities included, the named constant being
  the rational 1/3. No distributivity or cancellation is used, so the finiteness of the inputs is never opened.

  The pieces: each region's output as one whole-array function of what the region found (Proof/Region0 … Region4);
  the kernel program's run with its results named (Proof/KernelRun) and read back through its segments
  (Proof/Fold, Proof/FoldTop); the reference's run read one operation at a time (Proof/RefRun, Proof/RefRead,
  Proof/RMid, Proof/RefTerm); the two sides joined (Proof/Bridge).
-/
import proofs.«105421_j10754598109945_1_alg».proof.Defs
import proofs.«105421_j10754598109945_1_alg».proof.Proof.Gen.Kernel.Frame
import proofs.«105421_j10754598109945_1_alg».proof.Proof.Gen.KernelIdeal.Frame
import proofs.«105421_j10754598109945_1_alg».proof.Proof.Gen.ReferenceIdeal
import proofs.«105421_j10754598109945_1_alg».proof.Proof.Gen.Pre_finite_inputs
import proofs.«105421_j10754598109945_1_alg».proof.Proof.Bridge
import Idealize.ShloMosaic.Adequacy
import Idealize.ShloMosaic.Init

noncomputable section

namespace Cert.Proof

open Idealize.ShloMosaic Idealize.SL.Sem

/-- The Pallas program, word for word: it runs, nothing faults, its arguments end as launched. -/
theorem frame_kernel : Cert.frame_Kernel := fun m ρ _ => Cert.Kernel.Gen.frame m ρ

/-- The same of its idealization. -/
theorem frame_ideal : Cert.frame_KernelIdeal := fun m ρ _ => Cert.KernelIdeal.Gen.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: the constant 0.33333334 is named "inv_3", and the table gives that name
    the rational one third. -/
theorem preserves : Cert.preserves_Kernel_KernelIdeal :=
  IdealRules.named_const.statement Cert.KernelIdeal.κ "inv_3" .f32 0x3EAAAAAB#32 ((1 / 3 : ℝ) : EReal) rfl

/-- From memories that agree on the eight arguments both programs end with the same two tables: the kernel
    program's results are what its segments leave at the two result buffers, and the reference's results are those
    same terms of the same arrays. -/
theorem algebraic : Cert.algebraic_KernelIdeal_ReferenceIdeal := by
  intro m ρ m' ρ' _ hagree
  refine ⟨fun c => Cert.KernelIdeal.Gen.W12 m ρ c (Proc.devRef .tc Cert.KernelIdeal.main_v65),
    fun c => Cert.KernelIdeal.Gen.W12 m ρ c (Proc.devRef .tc Cert.KernelIdeal.main_v66),
    Cert.KernelIdeal.Results.run_results (F := Ideal) m ρ, ?_⟩
  exact (θ_run Cert.ReferenceIdeal.defs _ _).mono
    (fun _ h c => ⟨(h c).1.trans (Cert.Bridge.users_eq m ρ m' c (hagree c)),
      (h c).2.1.trans (Cert.Bridge.items_eq m ρ m' c (hagree c)), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
